-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x300x200 : Shape := ⟨3, ![64, 300, 200]⟩
abbrev S64x300x2 : Shape := ⟨3, ![64, 300, 2]⟩
abbrev S64x32x2 : Shape := ⟨3, ![64, 32, 2]⟩
abbrev S64x1 : Shape := ⟨2, ![64, 1]⟩
abbrev S64x32 : Shape := ⟨2, ![64, 32]⟩
abbrev S_ : Shape := ⟨0, ![]⟩

class Facts : Prop where
  bcast_S_S64x300x200 : S_.BroadcastsInDim S64x300x200 (![] : Fin 0 → Fin S64x300x200.rank)
  reducesTo_S64x300x200_S_d0_1_2 : S64x300x200.ReducesTo [0, 1, 2] S_
  h_S_ : 0 < S_.numel
  bcast_S_S64x300x2 : S_.BroadcastsInDim S64x300x2 (![] : Fin 0 → Fin S64x300x2.rank)
  reducesTo_S64x300x2_S_d0_1_2 : S64x300x2.ReducesTo [0, 1, 2] S_
  bcast_S_S64x32x2 : S_.BroadcastsInDim S64x32x2 (![] : Fin 0 → Fin S64x32x2.rank)
  reducesTo_S64x32x2_S_d0_1_2 : S64x32x2.ReducesTo [0, 1, 2] S_
  bcast_S_S64x1 : S_.BroadcastsInDim S64x1 (![] : Fin 0 → Fin S64x1.rank)
  reducesTo_S64x1_S_d0_1 : S64x1.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg4 : IVec S64x32 32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_c_6 : IVec S_ 32 := constantI S_ 32 0#32
  let main_v19 : IVec S64x32 32 := broadcastInDim S64x32 ![] bcast_S_S64x32 main_c_6
  let main_v20 : IVec S64x32 1 := cmpi .sge main_arg4 main_v19
  let main_c_7 : IVec S_ 1 := constantI S_ 1 1#1
  let main_v21 : IVec S_ 1 := (fun x v => Host.reduce IntOp.andi x v reducesTo_S64x32_S_d0_1 h_S_) main_v20 main_c_7
  let main_v22 : IVec S_ 1 := andi main_v18 main_v21
  main_v22

def fn {F : FTy → Type} [FloatOps F] (main_arg0 : FVec F S64x300x200 .f32) (main_arg1 : FVec F S64x300x2 .f32) (main_arg2 : FVec F S64x32x2 .f32) (main_arg3 : FVec F S64x1 .f32) (main_arg4 : IVec S64x32 32) : IVec S_ 1 :=
  let main_v0 : FVec F S64x300x200 .f32 := Host.absf main_arg0
  let main_cst : FVec F S_ .f32 := constant S_ .f32 0x7F800000#32
  let main_v1 : FVec F S64x300x200 .f32 := broadcastInDim S64x300x200 ![] bcast_S_S64x300x200 main_cst
  let main_v2 : IVec S64x300x200 1 := cmpf .olt main_v0 main_v1
  let main_c : IVec S_ 1 := constantI S_ 1 1#1
  let main_v3 : IVec S_ 1 := (fun x v => Host.reduce IntOp.andi x v reducesTo_S64x300x200_S_d0_1_2 h_S_) main_v2 main_c
  let main_v4 : FVec F S64x300x2 .f32 := Host.absf main_arg1
  let main_cst_0 : FVec F S_ .f32 := constant S_ .f32 0x7F800000#32
  let main_v5 : FVec F S64x300x2 .f32 := broadcastInDim S64x300x2 ![] bcast_S_S64x300x2 main_cst_0
  let main_v6 : IVec S64x300x2 1 := cmpf .olt main_v4 main_v5
  let main_c_1 : IVec S_ 1 := constantI S_ 1 1#1
  let main_v7 : IVec S_ 1 := (fun x v => Host.reduce IntOp.andi x v reducesTo_S64x300x2_S_d0_1_2 h_S_) main_v6 main_c_1
  let main_v8 : IVec S_ 1 := andi main_v3 main_v7
  let main_v9 : FVec F S64x32x2 .f32 := Host.absf main_arg2
  let main_cst_2 : FVec F S_ .f32 := constant S_ .f32 0x7F800000#32
  let main_v10 : FVec F S64x32x2 .f32 := broadcastInDim S64x32x2 ![] bcast_S_S64x32x2 main_cst_2
  let main_v11 : IVec S64x32x2 1 := cmpf .olt main_v9 main_v10
  let main_c_3 : IVec S_ 1 := constantI S_ 1 1#1
  let main_v12 : IVec S_ 1 := (fun x v => Host.reduce IntOp.andi x v reducesTo_S64x32x2_S_d0_1_2 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S64x300x200 : Shape := ⟨3, ![64, 300, 200]⟩
abbrev S64x300x2 : Shape := ⟨3, ![64, 300, 2]⟩
abbrev S64x32x2 : Shape := ⟨3, ![64, 32, 2]⟩
abbrev S64x1 : Shape := ⟨2, ![64, 1]⟩
abbrev S64x32 : Shape := ⟨2, ![64, 32]⟩
abbrev S_ : Shape := ⟨0, ![]⟩
abbrev S64x1x32 : Shape := ⟨3, ![64, 1, 32]⟩
abbrev S64x1x1 : Shape := ⟨3, ![64, 1, 1]⟩
abbrev S64x300x32 : Shape := ⟨3, ![64, 300, 32]⟩
abbrev S8x300x200 : Shape := ⟨3, ![8, 300, 200]⟩
abbrev S8x300x2 : Shape := ⟨3, ![8, 300, 2]⟩
abbrev S8x32x2 : Shape := ⟨3, ![8, 32, 2]⟩
abbrev S8x1x1 : Shape := ⟨3, ![8, 1, 1]⟩
abbrev S8x1x32 : Shape := ⟨3, ![8, 1, 32]⟩
abbrev S8x300x32 : Shape := ⟨3, ![8, 300, 32]⟩
abbrev S200x32 : Shape := ⟨2, ![200, 32]⟩
abbrev S1x300x200 : Shape := ⟨3, ![1, 300, 200]⟩
abbrev S300x200 : Shape := ⟨2, ![300, 200]⟩
abbrev S300 : Shape := ⟨1, ![300]⟩
abbrev S300x1 : Shape := ⟨2, ![300, 1]⟩
abbrev S1x1x32 : Shape := ⟨3, ![1, 1, 32]⟩
abbrev S32 : Shape := ⟨1, ![32]⟩
abbrev S1x32 : Shape := ⟨2, ![1, 32]⟩
abbrev S300x32 : Shape := ⟨2, ![300, 32]⟩
abbrev S1x300x1 : Shape := ⟨3, ![1, 300, 1]⟩
abbrev S1x32x1 : Shape := ⟨3, ![1, 32, 1]⟩
abbrev S1x1x1 : Shape := ⟨3, ![1, 1, 1]⟩
abbrev S1x300x32 : Shape := ⟨3, ![1, 300, 32]⟩

abbrev nBuf : Space → Nat
  | .hbm => 16
  | .vmem => 12
  | .smem => 0
  | _ => 0

abbrev bufTy : (tb : Table) → Fin (tcTables nBuf tb) → BufTy
  | .hbm, ⟨0, _⟩ => ⟨S64x300x200, .f32⟩
  | .hbm, ⟨1, _⟩ => ⟨S64x300x2, .f32⟩
  | .hbm, ⟨2, _⟩ => ⟨S64x32x2, .f32⟩
  | .hbm, ⟨3, _⟩ => ⟨S64x1, .f32⟩
  | .hbm, ⟨4, _⟩ => ⟨S64x32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64x32, .i32⟩
  | .hbm, ⟨9, _⟩ => ⟨S64x32, .i32⟩
  | .hbm, ⟨10, _⟩ => ⟨S_, .i32⟩
  | .hbm, ⟨11, _⟩ => ⟨S64x32, .i32⟩
  | .hbm, ⟨12, _⟩ => ⟨S64x32, .i32⟩
  | .hbm, ⟨13, _⟩ => ⟨S64x1x32, .i32⟩
  | .hbm, ⟨14, _⟩ => ⟨S64x1x1, .f32⟩
  | .hbm, ⟨15, _⟩ => ⟨S64x300x32, .f32⟩
  | .local _ .vmem, ⟨0, _⟩ => ⟨S8x300x200, .f32⟩
  | .local _ .vmem, ⟨1, _⟩ => ⟨S8x300x200, .f32⟩
  | .local _ .vmem, ⟨2, _⟩ => ⟨S8x300x2, .f32⟩
  | .local _ .vmem, ⟨3, _⟩ => ⟨S8x300x2, .f32⟩
  | .local _ .vmem, ⟨4, _⟩ => ⟨S8x32x2, .f32⟩
  | .local _ .vmem, ⟨5, _⟩ => ⟨S8x32x2, .f32⟩
  | .local _ .vmem, ⟨6, _⟩ => ⟨S8x1x1, .f32⟩
  | .local _ .vmem, ⟨7, _⟩ => ⟨S8x1x1, .f32⟩
  | .local _ .vmem, ⟨8, _⟩ => ⟨S8x1x32, .i32⟩
  | .local _ .vmem, ⟨9, _⟩ => ⟨S8x1x32, .i32⟩
  | .local _ .vmem, ⟨10, _⟩ => ⟨S8x300x32, .f32⟩
  | .local _ .vmem, ⟨11, _⟩ => ⟨S8x300x32, .f32⟩
  | _, _ => ⟨S64x300x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v2 : Index := Scalar.indexCast arg7
  let c0 : Index := 0#32
  let c0_1 : Index := 0#32
  ![v2.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v16 : Index := Scalar.indexCast arg7
  let c0_4 : Index := 0#32
  let c0_5 : Index := 0#32
  ![v16.toNat, 0, 0]
def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let v27 : Index := Scalar.indexCast arg7
  let c0_8 : Index := 0#32
  let c0_9 : Index := 0#32
  ![v27.toNat, 0, 0]
def k0_off4 (k0_t1 : Fin k0_t1_loop.trips) : Fin 3 → Nat :=
  let c0_i32 : BitVec 32 := 0#32
  let c1_i32 : BitVec 32 := 1#32
  let arg7 : BitVec 32 := Scf.iv c0_i32 c1_i32 k0_t1
  let v30 : Index := Scalar.indexCast arg7
  let c0_10 : Index := 0#32
  let c1 : Index := 1#32
  ![v30.toNat, 0, 1]
def k0_off5 (k0_t1 : Fin k0_t1_loop.trips) : Fin 3 → Nat :=
  let c0_i32 : BitVec 32 := 0#32
  let c1_i32 : BitVec 32 := 1#32
  let arg7 : BitVec 32 := Scf.iv c0_i32 c1_i32 k0_t1
  let v33 : Index := Scalar.indexCast arg7
  let c0_11 : Index := 0#32
  let c0_12 : Index := 0#32
  ![v33.toNat, 0, 0]
def k0_off6 (k0_t1 : Fin k0_t1_loop.trips) : Fin 3 → Nat :=
  let c0_i32 : BitVec 32 := 0#32
  let c1_i32 : BitVec 32 := 1#32
  let arg7 : BitVec 32 := Scf.iv c0_i32 c1_i32 k0_t1
  let v37 : Index := Scalar.indexCast arg7
  let c0_13 : Index := 0#32
  let c1_14 : Index := 1#32
  ![v37.toNat, 0, 1]
def k0_off7 (k0_t1 : Fin k0_t1_loop.trips) : Fin 3 → Nat :=
  let c0_i32 : BitVec 32 := 0#32
  let c1_i32 : BitVec 32 := 1#32
  let arg7 : BitVec 32 := Scf.iv c0_i32 c1_i32 k0_t1
  let v50 : Index := Scalar.indexCast arg7
  let c0_15 : Index := 0#32
  let c0_16 : Index := 0#32
  ![v50.toNat, 0, 0]
def k0_off8 (k0_t1 : Fin k0_t1_loop.trips) : Fin 3 → Nat :=
  let c0_i32 : BitVec 32 := 0#32
  let c1_i32 : BitVec 32 := 1#32
  let arg7 : BitVec 32 := Scf.iv c0_i32 c1_i32 k0_t1
  let v109 : Index := Scalar.indexCast arg7
  let c0_26 : Index := 0#32
  let c0_27 : Index := 0#32
  ![v109.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x300x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x300x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x300x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64x32 : S_.BroadcastsInDim S64x32 (![] : Fin 0 → Fin S64x32.rank)
  shapeCasts_S64x32_S64x1x32 : S64x32.ShapeCasts S64x1x32
  shapeCasts_S64x1_S64x1x1 : S64x1.ShapeCasts S64x1x1
  iota_S200x32_d0_w32 : S200x32.Iotas .tc 32 [0]
  h_S1x300x200 : 0 < S1x300x200.numel
  shapeCasts_S1x300x200_S300x200 : S1x300x200.ShapeCasts S300x200
  reduces_S300x200_S300 : S300x200.Reduces [1] S300
  shapeCasts_S300_S300x1 : S300.ShapeCasts S300x1
  broadcasts_S300x1_S300x200 : S300x1.Broadcasts S300x200
  h_S1x1x32 : 0 < S1x1x32.numel
  shapeCasts_S1x1x32_S32 : S1x1x32.ShapeCasts S32
  shapeCasts_S32_S1x32 : S32.ShapeCasts S1x32
  broadcasts_S1x32_S200x32 : S1x32.Broadcasts S200x32
  natLt_1_32 : 1 < 32
  h_S1x300x1 : 0 < S1x300x1.numel
  shapeCasts_S1x300x1_S300x1 : S1x300x1.ShapeCasts S300x1
  h_S1x32x1 : 0 < S1x32x1.numel
  shapeCasts_S1x32x1_S32 : S1x32x1.ShapeCasts S32
  broadcasts_S300x1_S300x32 : S300x1.Broadcasts S300x32
  broadcasts_S1x32_S300x32 : S1x32.Broadcasts S300x32
  h_S1x1x1 : 0 < S1x1x1.numel
  inpos_S1x1x1_p0_0_0 : ∀ a, (![0, 0, 0] : Fin 3 → Nat) a < S1x1x1.size a
  h_S1x300x32 : 0 < S1x300x32.numel
  shapeCasts_S1x300x32_S300x32 : S1x300x32.ShapeCasts S300x32
  shapeCasts_S300x32_S1x300x32 : S300x32.ShapeCasts S1x300x32
  dot_S300x200_S200x32_S300x32_1_0_0_1_n_n_wf : DotDims.WF S300x200 S200x32 S300x32 [1] [0] [0] [1] [] []
  hrank0 : 0 < grid0.rank
  k0_t1_ok : k0_t1_loop.OK
  k0_off1_inb : ∀ k0_t1 : Fin k0_t1_loop.trips, ∀ a, (k0_off1 k0_t1) a + S1x300x200.size a ≤ S8x300x200.size a
  k0_off2_inb : ∀ k0_t1 : Fin k0_t1_loop.trips, ∀ a, (k0_off2 k0_t1) a + S1x1x32.size a ≤ S8x1x32.size a
  k0_off3_inb : ∀ k0_t1 : Fin k0_t1_loop.trips, ∀ a, (k0_off3 k0_t1) a + S1x300x1.size a ≤ S8x300x2.size a
  k0_off4_inb : ∀ k0_t1 : Fin k0_t1_loop.trips, ∀ a, (k0_off4 k0_t1) a + S1x300x1.size a ≤ S8x300x2.size a
  k0_off5_inb : ∀ k0_t1 : Fin k0_t1_loop.trips, ∀ a, (k0_off5 k0_t1) a + S1x32x1.size a ≤ S8x32x2.size a
  k0_off6_inb : ∀ k0_t1 : Fin k0_t1_loop.trips, ∀ a, (k0_off6 k0_t1) a + S1x32x1.size a ≤ S8x32x2.size a
  k0_off7_inb : ∀ k0_t1 : Fin k0_t1_loop.trips, ∀ a, (k0_off7 k0_t1) a + S1x1x1.size a ≤ S8x1x1.size a
  k0_off8_inb : ∀ k0_t1 : Fin k0_t1_loop.trips, ∀ a, (k0_off8 k0_t1) a + S1x300x32.size a ≤ S8x300x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x300x200.size a ≤ S64x300x200.size a
  hwx0_0 : ∀ i : grid0.Coords, EltTy.bits .f32 = 32 ∨ (Rect.block (s := S64x300x200) S8x300x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x300x2.size a ≤ S64x300x2.size a
  hwx0_1 : ∀ i : grid0.Coords, EltTy.bits .f32 = 32 ∨ (Rect.block (s := S64x300x2) S8x300x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32x2.size a ≤ S64x32x2.size a
  hwx0_2 : ∀ i : grid0.Coords, EltTy.bits .f32 = 32 ∨ (Rect.block (s := S64x32x2) S8x32x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x1.size a ≤ S64x1x1.size a
  hwx0_3 : ∀ i : grid0.Coords, EltTy.bits .f32 = 32 ∨ (Rect.block (s := S64x1x1) S8x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x32.size a ≤ S64x1x32.size a
  hwx0_4 : ∀ i : grid0.Coords, EltTy.bits .i32 = 32 ∨ (Rect.block (s := S64x1x32) S8x1x32.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x300x32.size a ≤ S64x300x32.size a
  hwx0_5 : ∀ i : grid0.Coords, EltTy.bits .f32 = 32 ∨ (Rect.block (s := S64x300x32) S8x300x32.size (cc0_transform_5 i) (hinb0_5 i)).WholeWords (EltTy.packing .f32)

variable [Facts₀]

def dot_S300x200_S200x32_S300x32_1_0_0_1_n_n : DotDims S300x200 S200x32 S300x32 where
  lhsContracting := [1]
  rhsContracting := [0]
  lhsNonContracting := [0]
  rhsNonContracting := [1]
  lhsBatch := []
  rhsBatch := []
  wf := dot_S300x200_S200x32_S300x32_1_0_0_1_n_n_wf

abbrev win0_0 : Pipeline.Window sig grid0 :=
  Pipeline.Window.ofSpec (Memref.whole main_arg0) S8x300x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x300x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x1x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x300x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x300x200 : Shape := ⟨3, ![64, 300, 200]⟩
abbrev S64x300x2 : Shape := ⟨3, ![64, 300, 2]⟩
abbrev S64x32x2 : Shape := ⟨3, ![64, 32, 2]⟩
abbrev S64x1 : Shape := ⟨2, ![64, 1]⟩
abbrev S64x32 : Shape := ⟨2, ![64, 32]⟩
abbrev S19200x200 : Shape := ⟨2, ![19200, 200]⟩
abbrev S_ : Shape := ⟨0, ![]⟩
abbrev S19200 : Shape := ⟨1, ![19200]⟩
abbrev S19200x1 : Shape := ⟨2, ![19200, 1]⟩
abbrev S19200x2 : Shape := ⟨2, ![19200, 2]⟩
abbrev S64x300x1 : Shape := ⟨3, ![64, 300, 1]⟩
abbrev S2048 : Shape := ⟨1, ![2048]⟩
abbrev S2048x2 : Shape := ⟨2, ![2048, 2]⟩
abbrev S64x1x1 : Shape := ⟨3, ![64, 1, 1]⟩
abbrev S2048x1 : Shape := ⟨2, ![2048, 1]⟩
abbrev S19200x2048 : Shape := ⟨2, ![19200, 2048]⟩
abbrev S19200x1x2 : Shape := ⟨3, ![19200, 1, 2]⟩
abbrev S1x2048x2 : Shape := ⟨3, ![1, 2048, 2]⟩
abbrev S19200x2048x2 : Shape := ⟨3, ![19200, 2048, 2]⟩
abbrev S1x2048 : Shape := ⟨2, ![1, 2048]⟩
abbrev S64x300x64x32 : Shape := ⟨4, ![64, 300, 64, 32]⟩
abbrev S64 : Shape := ⟨1, ![64]⟩
abbrev S64x2 : Shape := ⟨2, ![64, 2]⟩
abbrev S64x300x32 : Shape := ⟨3, ![64, 300, 32]⟩

abbrev nBuf : Space → Nat
  | .hbm => 138
  | .vmem => 0
  | .smem => 0
  | _ => 0

abbrev hbmTy0_0 (i : Nat) : BufTy := match i % 128 with
  | 0 => ⟨S64x300x200, .f32⟩
  | 1 => ⟨S64x300x2, .f32⟩
  | 2 => ⟨S64x32x2, .f32⟩
  | 3 => ⟨S64x1, .f32⟩
  | 4 => ⟨S64x32, .i32⟩
  | 5 => ⟨S19200x200, .f32⟩
  | 6 => ⟨S_, .f32⟩
  | 7 => ⟨S19200, .f32⟩
  | 8 => ⟨S_, .f32⟩
  | 9 => ⟨S19200, .f32⟩
  | 10 => ⟨S19200, .f32⟩
  | 11 => ⟨S19200x1, .f32⟩
  | 12 => ⟨S19200x200, .f32⟩
  | 13 => ⟨S19200x200, .f32⟩
  | 14 => ⟨S19200x200, .f32⟩
  | 15 => ⟨S_, .f32⟩
  | 16 => ⟨S19200, .f32⟩
  | 17 => ⟨S19200x1, .f32⟩
  | 18 => ⟨S19200x200, .f32⟩
  | 19 => ⟨S19200x200, .f32⟩
  | 20 => ⟨S19200x2, .f32⟩
  | 21 => ⟨S64x300x1, .f32⟩
  | 22 => ⟨S19200x1, .f32⟩
  | 23 => ⟨S19200x2, .f32⟩
  | 24 => ⟨S19200x2, .f32⟩
  | 25 => ⟨S2048, .i32⟩
  | 26 => ⟨S2048x2, .f32⟩
  | 27 => ⟨S64x1x1, .f32⟩
  | 28 => ⟨S64x32x2, .f32⟩
  | 29 => ⟨S64x32x2, .f32⟩
  | 30 => ⟨S2048x2, .f32⟩
  | 31 => ⟨S_, .i32⟩
  | 32 => ⟨S2048, .i32⟩
  | 33 => ⟨S2048, .i1⟩
  | 34 => ⟨S_, .i32⟩
  | 35 => ⟨S2048, .i32⟩
  | 36 => ⟨S2048, .i32⟩
  | 37 => ⟨S2048, .i32⟩
  | 38 => ⟨S2048x1, .i32⟩
  | 39 => ⟨S19200x2048, .f32⟩
  | 40 => ⟨S19200x2048, .f32⟩
  | 41 => ⟨S19200x1x2, .f32⟩
  | 42 => ⟨S1x2048x2, .f32⟩
  | 43 => ⟨S19200x2048x2, .f32⟩
  | 44 => ⟨S19200x2048x2, .f32⟩
  | 45 => ⟨S19200x2048x2, .f32⟩
  | 46 => ⟨S19200x2048x2, .f32⟩
  | 47 => ⟨S_, .f32⟩
  | 48 => ⟨S19200x2048, .f32⟩
  | 49 => ⟨S19200x1, .f32⟩
  | 50 => ⟨S19200, .f32⟩
  | 51 => ⟨S19200x1, .f32⟩
  | 52 => ⟨S19200, .f32⟩
  | 53 => ⟨S_, .f32⟩
  | 54 => ⟨S19200, .f32⟩
  | 55 => ⟨S19200, .f32⟩
  | 56 => ⟨S19200, .f32⟩
  | 57 => ⟨S_, .f32⟩
  | 58 => ⟨S19200, .f32⟩
  | 59 => ⟨S19200, .f32⟩
  | 60 => ⟨S19200, .f32⟩
  | 61 => ⟨S2048x1, .f32⟩
  | 62 => ⟨S2048, .f32⟩
  | 63 => ⟨S2048x1, .f32⟩
  | 64 => ⟨S2048, .f32⟩
  | 65 => ⟨S_, .f32⟩
  | 66 => ⟨S2048, .f32⟩
  | 67 => ⟨S2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S19200x1, .f32⟩
  | 74 => ⟨S19200x1, .f32⟩
  | 75 => ⟨S1x2048, .f32⟩
  | 76 => ⟨S1x2048, .f32⟩
  | 77 => ⟨S19200x2048, .f32⟩
  | 78 => ⟨S19200x2048, .f32⟩
  | 79 => ⟨S19200x2048, .f32⟩
  | 80 => ⟨S19200x2048, .f32⟩
  | 81 => ⟨S19200x2048, .f32⟩
  | 82 => ⟨S19200x2048, .f32⟩
  | 83 => ⟨S19200x2048, .f32⟩
  | 84 => ⟨S_, .f32⟩
  | 85 => ⟨S_, .f32⟩
  | 86 => ⟨S19200x2048, .f32⟩
  | 87 => ⟨S19200x2048, .f32⟩
  | 88 => ⟨S19200x1, .f32⟩
  | 89 => ⟨S1x2048, .f32⟩
  | 90 => ⟨S19200x2048, .f32⟩
  | 91 => ⟨S19200x2048, .f32⟩
  | 92 => ⟨S19200x2048, .f32⟩
  | 93 => ⟨S19200x2048, .f32⟩
  | 94 => ⟨S19200x2048, .f32⟩
  | 95 => ⟨S19200x2048, .f32⟩
  | 96 => ⟨S19200x2048, .f32⟩
  | 97 => ⟨S19200x2048, .f32⟩
  | 98 => ⟨S19200x2048, .f32⟩
  | 99 => ⟨S19200x2048, .f32⟩
  | 100 => ⟨S19200x2048, .f32⟩
  | 101 => ⟨S19200x2048, .f32⟩
  | 102 => ⟨S19200x2048, .f32⟩
  | 103 => ⟨S19200x2048, .f32⟩
  | 104 => ⟨S19200x2048, .f32⟩
  | 105 => ⟨S19200x2048, .f32⟩
  | 106 => ⟨S_, .f32⟩
  | 107 => ⟨S19200x2048, .f32⟩
  | 108 => ⟨S19200x2048, .f32⟩
  | 109 => ⟨S_, .f32⟩
  | 110 => ⟨S19200x2048, .f32⟩
  | 111 => ⟨S19200x2048, .f32⟩
  | 112 => ⟨S19200x2048, .f32⟩
  | 113 => ⟨S_, .f32⟩
  | 114 => ⟨S19200x2048, .f32⟩
  | 115 => ⟨S19200x2048, .f32⟩
  | 116 => ⟨S19200x2048, .f32⟩
  | 117 => ⟨S64x300x64x32, .f32⟩
  | 118 => ⟨S64, .i32⟩
  | 119 => ⟨S64, .i32⟩
  | 120 => ⟨S_, .i32⟩
  | 121 => ⟨S64, .i32⟩
  | 122 => ⟨S64, .i1⟩
  | 123 => ⟨S_, .i32⟩
  | 124 => ⟨S64, .i32⟩
  | 125 => ⟨S64, .i32⟩
  | 126 => ⟨S64, .i32⟩
  | 127 => ⟨S_, .i32⟩
  | _ => ⟨S64x300x200, .f32⟩

abbrev hbmTy0_1 (i : Nat) : BufTy := match i % 128 with
  | 0 => ⟨S64, .i32⟩
  | 1 => ⟨S64, .i1⟩
  | 2 => ⟨S_, .i32⟩
  | 3 => ⟨S64, .i32⟩
  | 4 => ⟨S64, .i32⟩
  | 5 => ⟨S64, .i32⟩
  | 6 => ⟨S64x1, .i32⟩
  | 7 => ⟨S64x1, .i32⟩
  | 8 => ⟨S64x2, .i32⟩
  | 9 => ⟨S64x300x32, .f32⟩
  | _ => ⟨S64x300x200, .f32⟩

abbrev hbmTy (i : Nat) : BufTy := match i / 128 with
  | 0 => hbmTy0_0 i
  | 1 => hbmTy0_1 i
  | _ => ⟨S64x300x200, .f32⟩

abbrev bufTy : (tb : Table) → Fin (tcTables nBuf tb) → BufTy
  | .hbm, ⟨i, _⟩ => hbmTy i
  | _, _ => ⟨S64x300x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_call0_v0 : Ref sig .tc := ⟨.hbm, 85, rfl⟩
abbrev main_call0_v1 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_9 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_c_12 : Ref sig .tc := ⟨.hbm, 120, rfl⟩
abbrev main_v99 : Ref sig .tc := ⟨.hbm, 121, rfl⟩
abbrev main_v100 : Ref sig .tc := ⟨.hbm, 122, rfl⟩
abbrev main_c_13 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_c_14 : Ref sig .tc := ⟨.hbm, 127, rfl⟩
abbrev main_v104 : Ref sig .tc := ⟨.hbm, 128, rfl⟩
abbrev main_v105 : Ref sig .tc := ⟨.hbm, 129, rfl⟩
abbrev main_c_15 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩

abbrev nD : Nat := 1
abbrev τ : Topo := Topo.v7x

variable {F : FTy → Type} [FloatOps F]

class Facts₀ : Prop where
  shapeCasts_S64x300x200_S19200x200 : S64x300x200.ShapeCasts S19200x200
  reducesTo_S19200x200_S19200_d1 : S19200x200.ReducesTo [1] S19200
  h_S_ : 0 < S_.numel
  bcast_S_S19200 : S_.BroadcastsInDim S19200 (![] : Fin 0 → Fin S19200.rank)
  bcast_S19200_S19200x1_0 : S19200.BroadcastsInDim S19200x1 (![0] : Fin 1 → Fin S19200x1.rank)
  bcast_S19200x1_S19200x200_0_1 : S19200x1.BroadcastsInDim S19200x200 (![0, 1] : Fin 2 → Fin S19200x200.rank)
  shapeCasts_S64x300x2_S19200x2 : S64x300x2.ShapeCasts S19200x2
  bcast_S64x1_S64x300x1_0_2 : S64x1.BroadcastsInDim S64x300x1 (![0, 2] : Fin 2 → Fin S64x300x1.rank)
  shapeCasts_S64x300x1_S19200x1 : S64x300x1.ShapeCasts S19200x1
  bcast_S19200x1_S19200x2_0_1 : S19200x1.BroadcastsInDim S19200x2 (![0, 1] : Fin 2 → Fin S19200x2.rank)
  shapeCasts_S64x32_S2048 : S64x32.ShapeCasts S2048
  shapeCasts_S64x32x2_S2048x2 : S64x32x2.ShapeCasts S2048x2
  bcast_S64x1_S64x1x1_0_2 : S64x1.BroadcastsInDim S64x1x1 (![0, 2] : Fin 2 → Fin S64x1x1.rank)
  bcast_S64x1x1_S64x32x2_0_1_2 : S64x1x1.BroadcastsInDim S64x32x2 (![0, 1, 2] : Fin 3 → Fin S64x32x2.rank)
  bcast_S_S2048 : S_.BroadcastsInDim S2048 (![] : Fin 0 → Fin S2048.rank)
  bcast_S2048_S2048x1_0 : S2048.BroadcastsInDim S2048x1 (![0] : Fin 1 → Fin S2048x1.rank)
  bcast_S19200x2_S19200x1x2_0_2 : S19200x2.BroadcastsInDim S19200x1x2 (![0, 2] : Fin 2 → Fin S19200x1x2.rank)
  bcast_S2048x2_S1x2048x2_1_2 : S2048x2.BroadcastsInDim S1x2048x2 (![1, 2] : Fin 2 → Fin S1x2048x2.rank)
  bcast_S19200x1x2_S19200x2048x2_0_1_2 : S19200x1x2.BroadcastsInDim S19200x2048x2 (![0, 1, 2] : Fin 3 → Fin S19200x2048x2.rank)
  bcast_S1x2048x2_S19200x2048x2_0_1_2 : S1x2048x2.BroadcastsInDim S19200x2048x2 (![0, 1, 2] : Fin 3 → Fin S19200x2048x2.rank)
  reducesTo_S19200x2048x2_S19200x2048_d2 : S19200x2048x2.ReducesTo [2] S19200x2048
  slices_S19200x2_S19200x1_0_0 : S19200x2.Slices ![0, 0] S19200x1
  shapeCasts_S19200x1_S19200 : S19200x1.ShapeCasts S19200
  slices_S19200x2_S19200x1_0_1 : S19200x2.Slices ![0, 1] S19200x1
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S2048_S1x2048_1 : S2048.BroadcastsInDim S1x2048 (![1] : Fin 1 → Fin S1x2048.rank)
  bcast_S19200x1_S19200x2048_0_1 : S19200x1.BroadcastsInDim S19200x2048 (![0, 1] : Fin 2 → Fin S19200x2048.rank)
  bcast_S1x2048_S19200x2048_0_1 : S1x2048.BroadcastsInDim S19200x2048 (![0, 1] : Fin 2 → Fin S19200x2048.rank)
  bcast_S_S19200x2048 : S_.BroadcastsInDim S19200x2048 (![] : Fin 0 → Fin S19200x2048.rank)
  shapeCasts_S19200x2048_S64x300x64x32 : S19200x2048.ShapeCasts S64x300x64x32
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  gather_S19200x200_S2048x1_S19200x2048_0_1_n_n_1_1_192001_wf : GatherDims.WF S19200x200 S2048x1 S19200x2048 [0] [1] [] [1] [] 1 ![19200, 1]
  gather_S64x300x64x32_S64x2_S64x300x32_12_02_n_n_02_1_1300132_wf : GatherDims.WF S64x300x64x32 S64x2 S64x300x32 [1, 2] [0, 2] [] [0, 2] [] 1 ![1, 300, 1, 32]

variable [Facts₀]

def gather_S19200x200_S2048x1_S19200x2048_0_1_n_n_1_1_192001 : GatherDims S19200x200 S2048x1 S19200x2048 where
  offsetDims := [0]
  collapsedSliceDims := [1]
  operandBatchingDims := []
  startIndicesBatchingDims := []
  startIndexMap := [1]
  indexVectorDim := 1
  sliceSizes := ![19200, 1]
  wf := gather_S19200x200_S2048x1_S19200x2048_0_1_n_n_1_1_192001_wf
def gather_S64x300x64x32_S64x2_S64x300x32_12_02_n_n_02_1_1300132 : GatherDims S64x300x64x32 S64x2 S64x300x32 where
  offsetDims := [1, 2]
  collapsedSliceDims := [0, 2]
  operandBatchingDims := []
  startIndicesBatchingDims := []
  startIndexMap := [0, 2]
  indexVectorDim := 1
  sliceSizes := ![1, 300, 1, 32]
  wf := gather_S64x300x64x32_S64x2_S64x300x32_12_02_n_n_02_1_1300132_wf

class Facts : Prop extends Facts₀ where

variable [Facts]
-- ==== Proof.MatchCost.lean ====
/-
  The matching cost of one (query, target) pair, as plain mathematics on the extended reals.

  For a batch element with class scores `x : Fin 200 → EReal` of a query, the query's segment `(oc, ow)`
  (centre, width), a target's segment `(tc, tw)`, the lengths `lq`, `lt` the two segments are scaled by and the
  target's label, the cost is

    L1 distance of the two segments  −  softmax(x)[label]  −  GIoU of the two scaled segments.

  `prob` is the softmax entry exactly as both programs spell it (shift by the row's maximum, exponentiate, divide by
  the row's sum); `cls` is the class a label word names, read signed and clamped into `[0, 199]`; `giou` is the
  one-dimensional generalized IoU of the segments `[s₁, e₁]`, `[s₂, e₂]` with `s = c·l − ½·(w·l)`,
  `e = c·l + ½·(w·l)`. Nothing here needs finiteness: every step is the same expression on both sides, and the
  few differences in spelling (`0 − a` for `−a`, `0 + (a + b)` for `a + b`, `max 0 a` for `max a 0`) are
  identities of the extended reals.
-/
import Idealize.ShloMosaic.PureOps.Ideal
import Idealize.ShloMosaic.Lib.ValueIdx

noncomputable section

open scoped BigOperators

namespace Cert.MatchCost

open Idealize.ShloMosaic Idealize.ShloMosaic.ValueIdx

/-- The value `−∞` both programs start a row's maximum from. -/
abbrev negInf : EReal := Ideal.ofBits .f32 0xFF800000#32
/-- The literal `0.5`. -/
abbrev half : EReal := Ideal.ofBits .f32 0x3F000000#32
/-- The literal `1.0` (the three cost weights). -/
abbrev one : EReal := Ideal.ofBits .f32 0x3F800000#32

/-- A row's maximum: `max (−∞) (fold of max from −∞ over the 200 classes)`. -/
def rowMax (x : Fin 200 → EReal) : EReal :=
  max negInf ((Finset.univ : Finset (Fin 200)).fold max negInf x)

/-- The shifted exponential of class `k`. -/
def expRow (x : Fin 200 → EReal) (k : Fin 200) : EReal := Ideal.exp (x k - rowMax x)

/-- The softmax entry of class `k`. -/
def prob (x : Fin 200 → EReal) (k : Fin 200) : EReal := Ideal.div (expRow x k) (∑ c : Fin 200, expRow x c)

/-- The class a label word names: the word read as a signed integer and clamped into `[0, 199]`. -/
def cls (l : BitVec 32) : Fin 200 := ⟨min l.toInt.toNat 199, by omega⟩

/-- `|a|` as both programs compute it at the extended reals. -/
def absE (a : EReal) : EReal := max a (-a)

/-- The L1 distance of the unscaled segments. -/
def segCost (oc ow tc tw : EReal) : EReal := absE (oc - tc) + absE (ow - tw)

/-- Start of a scaled segment. -/
def segStart (c w l : EReal) : EReal := c * l - half * (w * l)
/-- End of a scaled segment. -/
def segEnd (c w l : EReal) : EReal := c * l + half * (w * l)

/-- Length of the intersection of `[s₁, e₁]` and `[s₂, e₂]`, cut off at zero. -/
def inter (s1 e1 s2 e2 : EReal) : EReal := max (min e1 e2 - max s1 s2) 0
/-- Length of the union. -/
def union (s1 e1 s2 e2 : EReal) : EReal := (e1 - s1) + (e2 - s2) - inter s1 e1 s2 e2
/-- Length of the smallest enclosing segment. -/
def enclose (s1 e1 s2 e2 : EReal) : EReal := max e1 e2 - min s1 s2

/-- Generalized IoU of two segments given by their ends. -/
def giouSE (s1 e1 s2 e2 : EReal) : EReal :=
  Ideal.div (inter s1 e1 s2 e2) (union s1 e1 s2 e2)
    - Ideal.div (enclose s1 e1 s2 e2 - union s1 e1 s2 e2) (enclose s1 e1 s2 e2)

/-- Generalized IoU of the query's segment scaled by `lq` and the target's scaled by `lt`. -/
def giou (oc ow tc tw lq lt : EReal) : EReal :=
  giouSE (segStart oc ow lq) (segEnd oc ow lq) (segStart tc tw lt) (segEnd tc tw lt)

/-- The matching cost of one pair, from the segments, the two lengths and the softmax entry `p` of the target's class. -/
def cost (oc ow tc tw lq lt p : EReal) : EReal :=
  (one * segCost oc ow tc tw + one * (0 - p)) + one * (0 - giou oc ow tc tw lq lt)

/-- THE RESULT: entry `(b, q, t)` is the cost of query `q` against target `t` of the SAME batch element `b`. -/
def G (logits : (⟨3, ![64, 300, 200]⟩ : Shape).Idx → EReal) (pseg : (⟨3, ![64, 300, 2]⟩ : Shape).Idx → EReal)
    (tseg : (⟨3, ![64, 32, 2]⟩ : Shape).Idx → EReal) (lens : (⟨2, ![64, 1]⟩ : Shape).Idx → EReal)
    (labels : (⟨2, ![64, 32]⟩ : Shape).Idx → BitVec 32) : (⟨3, ![64, 300, 32]⟩ : Shape).Idx → EReal :=
  fun j =>
    cost (pseg (ix3 (j 0) (j 1) (0 : Fin 2))) (pseg (ix3 (j 0) (j 1) (1 : Fin 2)))
      (tseg (ix3 (j 0) (j 2) (0 : Fin 2))) (tseg (ix3 (j 0) (j 2) (1 : Fin 2)))
      (lens (ix2 (j 0) (0 : Fin 1))) (lens (ix2 (j 0) (0 : Fin 1)))
      (prob (fun c => logits (ix3 (j 0) (j 1) c)) (cls (labels (ix2 (j 0) (j 2)))))

end Cert.MatchCost

end
-- ==== Proof.Labels.lean ====
/-
  Label words. A label is a 32-bit word read as a signed integer; the class it names is that integer clamped into
  `[0, 199]` (`MatchCost.cls`).

  * Clamping the WORD first — `min 199 (max 0 l)` on signed words — gives the word of that class, for every `l`.
  * For a non-negative label the wrap-around normalisation `l < 0 ? l + 200 : l` changes nothing.
  * Two class numbers below 200 are equal exactly when their words are.
-/
import Idealize.ShloMosaic.PureOps.Ideal
import proofs.«405165_j11484742549831_3_alg».proof.Proof.MatchCost

namespace Cert.Labels

open Idealize.ShloMosaic Cert.MatchCost

/-- The signed clamp of a label word into `[0, 199]` is the word of the class it names. -/
theorem clip_word (l : BitVec 32) : IntOp.minsi 199#32 (IntOp.maxsi 0#32 l) = BitVec.ofNat 32 (cls l).val := by
  have h0 : (0#32 : BitVec 32).toInt = 0 := by decide
  have h199 : (199#32 : BitVec 32).toInt = 199 := by decide
  by_cases hneg : l.toInt < 0
  · -- a negative label: the maximum with 0 is 0, and 0 is below 199
    have hmax : IntOp.maxsi 0#32 l = 0#32 := by
      unfold IntOp.maxsi
      exact if_pos (by simp only [BitVec.slt, h0]; exact decide_eq_true hneg)
    have hmin : IntOp.minsi 199#32 0#32 = 0#32 := by decide
    have hc : (cls l).val = 0 := by show min l.toInt.toNat 199 = 0; omega
    rw [hmax, hmin, hc]
  · -- a non-negative label is its own maximum with 0; its signed value is its unsigned one
    have hmax : IntOp.maxsi 0#32 l = l := by
      unfold IntOp.maxsi
      exact if_neg (by simp only [BitVec.slt, h0]; simpa using hneg)
    have hl : l.toInt = (l.toNat : Int) := by
      rw [BitVec.toInt_eq_toNat_cond] at hneg ⊢
      split at hneg <;> split <;> omega
    rw [hmax]
    by_cases hbig : (199 : Int) < l.toInt
    · have hmin : IntOp.minsi 199#32 l = 199#32 := by
        unfold IntOp.minsi
        exact if_pos (by simp only [BitVec.slt, h199]; exact decide_eq_true hbig)
      have hc : (cls l).val = 199 := by show min l.toInt.toNat 199 = 199; omega
      rw [hmin, hc]
    · have hmin : IntOp.minsi 199#32 l = l := by
        unfold IntOp.minsi
        exact if_neg (by simp only [BitVec.slt, h199]; simpa using hbig)
      have hc : (cls l).val = l.toNat := by show min l.toInt.toNat 199 = l.toNat; omega
      rw [hmin, hc, BitVec.ofNat_toNat, BitVec.setWidth_eq]

/-- A non-negative label is left alone by the wrap-around normalisation of a negative index. -/
theorem norm_nonneg (l : BitVec 32) (h : 0 ≤ l.toInt) :
    Scalar.select (IntOp.cmpi .slt l 0#32) (IntOp.addi l 200#32) l = l := by
  unfold Scalar.select IntOp.cmpi
  have h0 : (0#32 : BitVec 32).toInt = 0 := by decide
  have : l.slt 0#32 = false := by
    simp only [BitVec.slt, h0]; exact decide_eq_false (by omega)
  rw [this]; rfl

/-- The class a non-negative label names, in the form a clamped start index is read in. -/
theorem cls_val (l : BitVec 32) : (cls l).val = min l.toInt.toNat 199 := rfl

/-- Words of class numbers below 200 are equal exactly when the numbers are. -/
theorem ofNat_eq_iff (c k : Fin 200) : BitVec.ofNat 32 c.val = BitVec.ofNat 32 k.val ↔ c = k := by
  constructor
  · intro h
    have := congrArg BitVec.toNat h
    simp only [BitVec.toNat_ofNat] at this
    exact Fin.ext (by have := c.isLt; have := k.isLt; omega)
  · rintro rfl; rfl

end Cert.Labels
-- ==== Proof.KClass.lean ====
/-
  The kernel's class cost for one batch element, read at (query `q`, target `t`): the product of the softmax rows with the
  one-hot table of the (already clamped) labels has, in column `t`, exactly the softmax entry of `t`'s class; the kernel
  subtracts it from zero.
-/
import proofs.«405165_j11484742549831_3_alg».proof.Proof.Gen.KernelIdeal.Skeleton
import proofs.«405165_j11484742549831_3_alg».proof.Proof.MatchCost
import proofs.«405165_j11484742549831_3_alg».proof.Proof.Labels
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MatchKernel

open Cert.KernelIdeal Cert.KernelIdeal.Gen Idealize.ShloMosaic Idealize.ShloMosaic.ValueIdx
open Cert.MatchCost

/-! ### Layout steps read at an index -/

/-- A vector of length `a` cast to a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `i`. -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, 1, a]` array cast to a vector of length `a` reads, at `i`, the array at `(0, 0, i)`. -/
private theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- The index a reduction over axis 1 of a `[300, 200]` array inserts coordinate `c` at, over the row `q`, is `(q, c)`. -/
private theorem lift_row (q : Fin 300) (c : Fin 200) :
    reduces_S300x200_S300.lift (ix1 q) c = ix2 q c := by
  funext ax
  match ax with
  | ⟨0, _⟩ => exact Fin.ext rfl
  | ⟨1, _⟩ => exact Fin.ext rfl

/-! ### The softmax rows -/

/-- The class scores as a `[300, 200]` matrix. -/
private def scores (v3 : Vec Ideal S1x300x200 .f32) : FVec Ideal S300x200 .f32 :=
  shapeCast S300x200 v3 shapeCasts_S1x300x200_S300x200

/-- Each row's maximum, as the program takes it. -/
private def rowMaxV (v3 : Vec Ideal S1x300x200 .f32) : FVec Ideal S300 .f32 :=
  maximumf (broadcast S300 (Scalar.ofBits .f32 0xFF800000#32))
    (multiReduction .maximumf [1] S300 (scores v3) 0xFF800000#32 reduces_S300x200_S300 (.inl rfl) rfl)

/-- The shifted exponentials. -/
private def expV (v3 : Vec Ideal S1x300x200 .f32) : FVec Ideal S300x200 .f32 :=
  exp (subf (scores v3)
    (broadcastTo S300x200 (shapeCast S300x1 (rowMaxV v3) shapeCasts_S300_S300x1) broadcasts_S300x1_S300x200))

/-- Each row's sum of exponentials. -/
private def sumV (v3 : Vec Ideal S1x300x200 .f32) : FVec Ideal S300 .f32 :=
  multiReduction .add [1] S300 (expV v3) 0x00000000#32 reduces_S300x200_S300 (.inl rfl) rfl

/-- The softmax matrix. -/
private def softV (v3 : Vec Ideal S1x300x200 .f32) : FVec Ideal S300x200 .f32 :=
  divf (expV v3)
    (broadcastTo S300x200 (shapeCast S300x1 (sumV v3) shapeCasts_S300_S300x1) broadcasts_S300x1_S300x200)

/-- The one-hot table of the labels. -/
private def hotV (v0 : IVec S200x32 32) (v17 : Vec Ideal S1x1x32 .i32) : FVec Ideal S200x32 .f32 :=
  sitofp .f32 (extui 32 (cmpi .eq v0
    (broadcastTo S200x32 (shapeCast S1x32 (shapeCast S32 v17 shapeCasts_S1x1x32_S32) shapeCasts_S32_S1x32)
      broadcasts_S1x32_S200x32)) natLt_1_32)

/-- The payload is zero minus the product of the softmax matrix with the one-hot table. -/
private theorem pay2_eq (v0 : IVec S200x32 32) (v3 : Vec Ideal S1x300x200 .f32) (v17 : Vec Ideal S1x1x32 .i32) :
    k0_pay2 (F := Ideal) v0 v3 v17
      = subf (broadcast S300x32 (Scalar.ofBits .f32 0x00000000#32))
          (matmul dot_S300x200_S200x32_S300x32_1_0_0_1_n_n (some .fp32) (softV v3) (hotV v0 v17)
            (constant S300x32 .f32 0x00000000#32)) := rfl

private theorem scores_apply (v3 : Vec Ideal S1x300x200 .f32) (q : Fin 300) (c : Fin 200) :
    scores v3 (ix2 q c) = v3 (ix3 (0 : Fin 1) q c) :=
  shapeCast_1ab_ab_apply v3 shapeCasts_S1x300x200_S300x200 q c

/-- Row `q` of the score matrix, read through the reduction's inserted index, is row `q` of the scores. -/
private theorem scores_row (v3 : Vec Ideal S1x300x200 .f32) (q : Fin 300) :
    (scores v3 ∘ reduces_S300x200_S300.lift (ix1 q)) = fun c : Fin 200 => v3 (ix3 (0 : Fin 1) q c) :=
  funext fun c => (congrArg (scores v3) (lift_row q c)).trans (scores_apply v3 q c)

/-- Row `q`'s maximum is the specification's `rowMax` of that row. -/
private theorem rowMaxV_apply (v3 : Vec Ideal S1x300x200 .f32) (q : Fin 300) :
    rowMaxV v3 (ix1 q) = rowMax (fun c => v3 (ix3 (0 : Fin 1) q c)) :=
  congrArg (max negInf)
    ((Ideal.multiReduction_maximumf_single (scores v3) _ reduces_S300x200_S300 _ _ (ix1 q)).trans
      (congrArg (fun f : Fin 200 → EReal => (Finset.univ : Finset (Fin 200)).fold max negInf f) (scores_row v3 q)))

/-- The shifted exponential at `(q, c)` is the specification's `expRow`. -/
private theorem expV_apply (v3 : Vec Ideal S1x300x200 .f32) (q : Fin 300) (c : Fin 200) :
    expV v3 (ix2 q c) = expRow (fun c => v3 (ix3 (0 : Fin 1) q c)) c := by
  unfold expV expRow
  show Ideal.exp (scores v3 (ix2 q c) - broadcastTo S300x200 (shapeCast S300x1 (rowMaxV v3) shapeCasts_S300_S300x1)
    broadcasts_S300x1_S300x200 (ix2 q c)) = _
  rw [broadcastTo_a1_ab_apply, shapeCast_a_a1_apply, rowMaxV_apply, scores_apply]

/-- Row `q`'s sum of exponentials. -/
private theorem sumV_apply (v3 : Vec Ideal S1x300x200 .f32) (q : Fin 300) :
    sumV v3 (ix1 q) = ∑ c : Fin 200, expRow (fun c => v3 (ix3 (0 : Fin 1) q c)) c :=
  (Ideal.multiReduction_add_single (expV v3) _ reduces_S300x200_S300 _ _ (ix1 q)).trans
    (Finset.sum_congr rfl fun c _ => (congrArg (expV v3) (lift_row q c)).trans (expV_apply v3 q c))

/-- The softmax matrix at `(q, c)` is the specification's `prob`. -/
private theorem softV_apply (v3 : Vec Ideal S1x300x200 .f32) (q : Fin 300) (c : Fin 200) :
    softV v3 (ix2 q c) = prob (fun c => v3 (ix3 (0 : Fin 1) q c)) c := by
  unfold softV prob
  rw [divf_apply, broadcastTo_a1_ab_apply, shapeCast_a_a1_apply, sumV_apply, expV_apply]

/-! ### The one-hot table -/

/-- The row counter at `(c, t)` is the word of `c`. -/
private theorem iota_apply (c : Fin 200) (t : Fin 32) :
    iota .tc S200x32 32 [0] iota_S200x32_d0_w32 (ix2 c t) = BitVec.ofNat 32 c.val := by
  show BitVec.ofNat 32 (0 * 200 + c.val) = BitVec.ofNat 32 c.val
  rw [Nat.zero_mul, Nat.zero_add]

/-- The labels, spread down the 200 rows, read at `(c, t)` target `t`'s label. -/
private theorem labels_apply (v17 : Vec Ideal S1x1x32 .i32) (c : Fin 200) (t : Fin 32) :
    broadcastTo S200x32 (shapeCast S1x32 (shapeCast S32 v17 shapeCasts_S1x1x32_S32) shapeCasts_S32_S1x32)
      broadcasts_S1x32_S200x32 (ix2 c t) = v17 (ix3 (0 : Fin 1) (0 : Fin 1) t) := by
  rw [broadcastTo_1b_ab_apply, shapeCast_a_1a_apply, shapeCast_11a_a_apply]

/-- The one-hot table at `(c, t)` is `1` when `c` is target `t`'s class and `0` otherwise. -/
private theorem hotV_apply (v17 : Vec Ideal S1x1x32 .i32) (c k : Fin 200) (t : Fin 32)
    (hk : v17 (ix3 (0 : Fin 1) (0 : Fin 1) t) = BitVec.ofNat 32 k.val) :
    hotV (iota .tc S200x32 32 [0] iota_S200x32_d0_w32) v17 (ix2 c t) = if c = k then 1 else 0 := by
  unfold hotV
  show FloatOps.sitofp .f32 ((IntOp.cmpi .eq (iota .tc S200x32 32 [0] iota_S200x32_d0_w32 (ix2 c t))
    (broadcastTo S200x32 (shapeCast S1x32 (shapeCast S32 v17 shapeCasts_S1x1x32_S32) shapeCasts_S32_S1x32)
      broadcasts_S1x32_S200x32 (ix2 c t))).setWidth 32) = _
  rw [iota_apply, labels_apply, hk]
  show ((((BitVec.ofBool (BitVec.ofNat 32 c.val == BitVec.ofNat 32 k.val)).setWidth 32).toInt : ℝ) : EReal) = _
  by_cases h : c = k
  · subst h
    have h1 : ((BitVec.ofBool true).setWidth 32).toInt = 1 := by decide
    rw [if_pos rfl, beq_self_eq_true, h1]
    simp
  · have hne : (BitVec.ofNat 32 c.val == BitVec.ofNat 32 k.val) = false :=
      beq_eq_false_iff_ne.2 fun e => h ((Cert.Labels.ofNat_eq_iff c k).1 e)
    have h0 : ((BitVec.ofBool false).setWidth 32).toInt = 0 := by decide
    rw [if_neg h, hne, h0]
    simp

/-! ### The product -/

private theorem dot_lhs_0 (j : S300x32.Idx) (k : dot_S300x200_S200x32_S300x32_1_0_0_1_n_n.contr.Idx) :
    (dot_S300x200_S200x32_S300x32_1_0_0_1_n_n.lhsIdx j k 0 : ℕ) = j 0 := by
  simp [DotDims.lhsIdx, dot_S300x200_S200x32_S300x32_1_0_0_1_n_n]; rfl
private theorem dot_lhs_1 (j : S300x32.Idx) (k : dot_S300x200_S200x32_S300x32_1_0_0_1_n_n.contr.Idx) :
    (dot_S300x200_S200x32_S300x32_1_0_0_1_n_n.lhsIdx j k 1 : ℕ) = k ⟨0, by decide⟩ := by
  simp [DotDims.lhsIdx, dot_S300x200_S200x32_S300x32_1_0_0_1_n_n]; rfl
private theorem dot_rhs_0 (j : S300x32.Idx) (k : dot_S300x200_S200x32_S300x32_1_0_0_1_n_n.contr.Idx) :
    (dot_S300x200_S200x32_S300x32_1_0_0_1_n_n.rhsIdx j k 0 : ℕ) = k ⟨0, by decide⟩ := by
  simp [DotDims.rhsIdx, dot_S300x200_S200x32_S300x32_1_0_0_1_n_n]; rfl
private theorem dot_rhs_1 (j : S300x32.Idx) (k : dot_S300x200_S200x32_S300x32_1_0_0_1_n_n.contr.Idx) :
    (dot_S300x200_S200x32_S300x32_1_0_0_1_n_n.rhsIdx j k 1 : ℕ) = j 1 := by
  simp [DotDims.rhsIdx, dot_S300x200_S200x32_S300x32_1_0_0_1_n_n]; rfl

/-- The contraction's index set is the 200 classes. -/
private def classEquiv : dot_S300x200_S200x32_S300x32_1_0_0_1_n_n.contr.Idx ≃ Fin 200 :=
  contrEquiv1 dot_S300x200_S200x32_S300x32_1_0_0_1_n_n 200 rfl rfl

/-- At output `(q, t)` and class `c` the left operand is read at `(q, c)`. -/
private theorem dot_lhs (q : Fin 300) (t : Fin 32) (c : Fin 200) :
    dot_S300x200_S200x32_S300x32_1_0_0_1_n_n.lhsIdx (ix2 q t) (classEquiv.symm c) = ix2 q c := by
  funext a
  match a with
  | ⟨0, _⟩ => exact Fin.ext (dot_lhs_0 _ _)
  | ⟨1, _⟩ => exact Fin.ext ((dot_lhs_1 _ _).trans (contrEquiv1_symm_val _ 200 rfl rfl c))

/-- At output `(q, t)` and class `c` the right operand is read at `(c, t)`. -/
private theorem dot_rhs (q : Fin 300) (t : Fin 32) (c : Fin 200) :
    dot_S300x200_S200x32_S300x32_1_0_0_1_n_n.rhsIdx (ix2 q t) (classEquiv.symm c) = ix2 c t := by
  funext a
  match a with
  | ⟨0, _⟩ => exact Fin.ext ((dot_rhs_0 _ _).trans (contrEquiv1_symm_val _ 200 rfl rfl c))
  | ⟨1, _⟩ => exact Fin.ext (dot_rhs_1 _ _)

/-- The product of the softmax matrix with the one-hot table, at `(q, t)`, is the softmax entry of `t`'s class:
    the sum over the classes has one non-zero term, `p · 1`; every other is `p · 0`. -/
private theorem prod_apply (v3 : Vec Ideal S1x300x200 .f32) (v17 : Vec Ideal S1x1x32 .i32) (q : Fin 300) (t : Fin 32) (k : Fin 200)
    (hk : v17 (ix3 (0 : Fin 1) (0 : Fin 1) t) = BitVec.ofNat 32 k.val) :
    matmul dot_S300x200_S200x32_S300x32_1_0_0_1_n_n (some .fp32) (softV v3)
        (hotV (iota .tc S200x32 32 [0] iota_S200x32_d0_w32) v17) (constant S300x32 .f32 0x00000000#32) (ix2 q t)
      = prob (fun c => v3 (ix3 (0 : Fin 1) q c)) k := by
  refine (Ideal.matmul_constant_zero_apply dot_S300x200_S200x32_S300x32_1_0_0_1_n_n (some .fp32) (softV v3)
    (hotV (iota .tc S200x32 32 [0] iota_S200x32_d0_w32) v17) (ix2 q t)).trans ?_
  rw [← Equiv.sum_comp classEquiv.symm]
  simp only [dot_lhs, dot_rhs, softV_apply, hotV_apply v17 _ k t hk]
  rw [Finset.sum_eq_single k]
  · rw [if_pos rfl, mul_one]
  · intro c _ hc
    rw [if_neg hc, mul_zero]
  · intro h
    exact absurd (Finset.mem_univ k) h

/-- `0 − ∑ c, softmax(row q)[c] · [c = label t]` is `0 − softmax(row q)[k]` when target `t`'s label word is class `k`'s. -/
theorem pay2_apply (v3 : Vec Ideal S1x300x200 .f32) (v17 : Vec Ideal S1x1x32 .i32) (q : Fin 300) (t : Fin 32) (k : Fin 200)
    (hk : v17 (ix3 (0 : Fin 1) (0 : Fin 1) t) = BitVec.ofNat 32 k.val) :
    k0_pay2 (F := Ideal) (iota .tc S200x32 32 [0] iota_S200x32_d0_w32) v3 v17 (ix2 q t)
      = 0 - prob (fun c => v3 (ix3 (0 : Fin 1) q c)) k := by
  rw [pay2_eq, subf_apply, broadcast_apply, prod_apply v3 v17 q t k hk]
  show Ideal.ofBits .f32 0x00000000#32 - _ = _
  rw [Ideal.ofBits_zero_f32]

end Cert.MatchKernel

end
-- ==== Proof.KGeom.lean ====
/-
  The kernel's stored value for one batch element, read at (query `q`, target `t`), from the values it loaded: the
  weighted sum of the L1 distance of the segments, the class cost `v26` (left abstract here) and minus the generalized
  IoU of the segments scaled by the batch element's length.
-/
import proofs.«405165_j11484742549831_3_alg».proof.Proof.Gen.KernelIdeal.Skeleton
import proofs.«405165_j11484742549831_3_alg».proof.Proof.MatchCost
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MatchKernel

open Cert.KernelIdeal Cert.KernelIdeal.Gen Idealize.ShloMosaic Idealize.ShloMosaic.ValueIdx
open Cert.MatchCost

/-! ## The layout forms the kernel uses, read at an index -/

section Layout
variable {α : Type}

/-- A `[1, 300, 1]` column cast to `[300, 1]` reads, at `(q, 0)`, the operand at `(0, q, 0)`. -/
theorem geom_col_apply (v : S1x300x1.Idx → α) (q : Fin 300) :
    shapeCast S300x1 v shapeCasts_S1x300x1_S300x1 (ix2 q (0 : Fin 1)) = v (ix3 (0 : Fin 1) q (0 : Fin 1)) :=
  shapeCast_1ab_ab_apply v shapeCasts_S1x300x1_S300x1 q (0 : Fin 1)

/-- A `[1, 32, 1]` column cast to `[32]` and then to `[1, 32]` reads, at `(0, t)`, the operand at `(0, t, 0)`:
both casts keep the row-major position `t`. -/
theorem geom_row_apply (v : S1x32x1.Idx → α) (t : Fin 32) :
    shapeCast S1x32 (shapeCast S32 v shapeCasts_S1x32x1_S32) shapeCasts_S32_S1x32 (ix2 (0 : Fin 1) t)
      = v (ix3 (0 : Fin 1) t (0 : Fin 1)) := by
  refine (shapeCast_a_1a_apply _ shapeCasts_S32_S1x32 (0 : Fin 1) t).trans ?_
  refine shapeCast_apply v shapeCasts_S1x32x1_S32 _ _ ?_
  rw [Shape.rowMajor_val_three, Shape.rowMajor_val_one]
  show (0 * 32 + t.val) * 1 + 0 = t.val
  omega

/-- A `[300, 1]` column broadcast to `[300, 32]` reads, at `(q, t)`, the column at `(q, 0)`. -/
theorem geom_bcol_apply (x : S300x1.Idx → α) (q : Fin 300) (t : Fin 32) :
    broadcastTo S300x32 x broadcasts_S300x1_S300x32 (ix2 q t) = x (ix2 q (0 : Fin 1)) := by
  refine broadcastTo_apply x broadcasts_S300x1_S300x32 (ix2 q t) (ix2 q (0 : Fin 1)) fun ax => ?_
  match ax with
  | ⟨0, _⟩ => rfl
  | ⟨1, _⟩ => rfl

/-- A `[1, 32]` row broadcast to `[300, 32]` reads, at `(q, t)`, the row at `(0, t)`. -/
theorem geom_brow_apply (x : S1x32.Idx → α) (q : Fin 300) (t : Fin 32) :
    broadcastTo S300x32 x broadcasts_S1x32_S300x32 (ix2 q t) = x (ix2 (0 : Fin 1) t) :=
  broadcastTo_1b_ab_apply x broadcasts_S1x32_S300x32 q t

/-- The one element of a `[1, 1, 1]` array. -/
theorem geom_len_apply (v : S1x1x1.Idx → α) :
    extractAt ![0, 0, 0] v inpos_S1x1x1_p0_0_0 = v (ix3 (0 : Fin 1) (0 : Fin 1) (0 : Fin 1)) := by
  unfold extractAt
  refine congrArg v (funext fun a => ?_)
  match a with
  | ⟨0, _⟩ => rfl
  | ⟨1, _⟩ => rfl
  | ⟨2, _⟩ => rfl

/-- A `[300, 32]` array cast to `[1, 300, 32]` reads, at `(0, q, t)`, the operand at `(q, t)`. -/
theorem geom_out_apply (x : S300x32.Idx → α) (q : Fin 300) (t : Fin 32) :
    shapeCast S1x300x32 x shapeCasts_S300x32_S1x300x32 (ix3 (0 : Fin 1) q t) = x (ix2 q t) :=
  shapeCast_ab_1ab_apply x shapeCasts_S300x32_S1x300x32 (0 : Fin 1) q t

end Layout

/-! ## The loaded columns and the length -/

theorem pay3_apply (v28 : Vec Ideal S1x300x1 .f32) (q : Fin 300) :
    k0_pay3 (F := Ideal) v28 (ix2 q (0 : Fin 1)) = v28 (ix3 (0 : Fin 1) q (0 : Fin 1)) :=
  geom_col_apply v28 q

theorem pay4_apply (v31 : Vec Ideal S1x300x1 .f32) (q : Fin 300) :
    k0_pay4 (F := Ideal) v31 (ix2 q (0 : Fin 1)) = v31 (ix3 (0 : Fin 1) q (0 : Fin 1)) :=
  geom_col_apply v31 q

theorem pay5_apply (v34 : Vec Ideal S1x32x1 .f32) (t : Fin 32) :
    k0_pay5 (F := Ideal) v34 (ix2 (0 : Fin 1) t) = v34 (ix3 (0 : Fin 1) t (0 : Fin 1)) :=
  geom_row_apply v34 t

theorem pay6_apply (v38 : Vec Ideal S1x32x1 .f32) (t : Fin 32) :
    k0_pay6 (F := Ideal) v38 (ix2 (0 : Fin 1) t) = v38 (ix3 (0 : Fin 1) t (0 : Fin 1)) :=
  geom_row_apply v38 t

theorem pay9_apply (v51 : Vec Ideal S1x1x1 .f32) :
    k0_pay9 (F := Ideal) v51 = v51 (ix3 (0 : Fin 1) (0 : Fin 1) (0 : Fin 1)) :=
  geom_len_apply v51

/-! ## The ends of the scaled segments -/

theorem pay14_apply (c w : FVec Ideal S300x1 .f32) (v51 : Vec Ideal S1x1x1 .f32) (i : S300x1.Idx) :
    k0_pay14 c w v51 i = segStart (c i) (w i) (k0_pay9 v51) := rfl

theorem pay15_apply (c w : FVec Ideal S300x1 .f32) (v51 : Vec Ideal S1x1x1 .f32) (i : S300x1.Idx) :
    k0_pay15 c w v51 i = segEnd (c i) (w i) (k0_pay9 v51) := rfl

theorem pay16_apply (c w : FVec Ideal S1x32 .f32) (v51 : Vec Ideal S1x1x1 .f32) (i : S1x32.Idx) :
    k0_pay16 c w v51 i = segStart (c i) (w i) (k0_pay9 v51) := rfl

theorem pay17_apply (c w : FVec Ideal S1x32 .f32) (v51 : Vec Ideal S1x1x1 .f32) (i : S1x32.Idx) :
    k0_pay17 c w v51 i = segEnd (c i) (w i) (k0_pay9 v51) := rfl

/-! ## Intersection, union and enclosing length of the two segments at `(q, t)` -/

section Pair
variable (c w : FVec Ideal S300x1 .f32) (tc tw : FVec Ideal S1x32 .f32) (v51 : Vec Ideal S1x1x1 .f32)
  (q : Fin 300) (t : Fin 32)

/-- The intersection: `max (min e₁ e₂ − max s₁ s₂) 0`, the four ends read from their column and row. -/
theorem pay18_apply :
    k0_pay18 c w tc tw v51 (ix2 q t)
      = inter (k0_pay14 c w v51 (ix2 q (0 : Fin 1))) (k0_pay15 c w v51 (ix2 q (0 : Fin 1)))
          (k0_pay16 tc tw v51 (ix2 (0 : Fin 1) t)) (k0_pay17 tc tw v51 (ix2 (0 : Fin 1) t)) := by
  unfold k0_pay18 inter
  simp only [maximumf_apply, minimumf_apply, subf_apply, broadcast_apply, geom_bcol_apply, geom_brow_apply,
    Ideal.ofBits_def, Ideal.ofBits_zero_f32]

/-- The union: `(e₁ − s₁) + (e₂ − s₂) − inter`, the two lengths taken on the column and the row. -/
theorem pay19_apply :
    k0_pay19 c w tc tw v51 (ix2 q t)
      = union (k0_pay14 c w v51 (ix2 q (0 : Fin 1))) (k0_pay15 c w v51 (ix2 q (0 : Fin 1)))
          (k0_pay16 tc tw v51 (ix2 (0 : Fin 1) t)) (k0_pay17 tc tw v51 (ix2 (0 : Fin 1) t)) := by
  unfold k0_pay19 union
  simp only [addf_apply, subf_apply, geom_bcol_apply, geom_brow_apply, pay18_apply]

/-- The enclosing length: `max e₁ e₂ − min s₁ s₂`. -/
theorem pay21_apply :
    k0_pay21 c w tc tw v51 (ix2 q t)
      = enclose (k0_pay14 c w v51 (ix2 q (0 : Fin 1))) (k0_pay15 c w v51 (ix2 q (0 : Fin 1)))
          (k0_pay16 tc tw v51 (ix2 (0 : Fin 1) t)) (k0_pay17 tc tw v51 (ix2 (0 : Fin 1) t)) := by
  unfold k0_pay21 enclose
  simp only [maximumf_apply, minimumf_apply, subf_apply, geom_bcol_apply, geom_brow_apply]

/-- The intersection over the union. -/
theorem pay20_apply :
    k0_pay20 c w tc tw v51 (ix2 q t)
      = Ideal.div (k0_pay18 c w tc tw v51 (ix2 q t)) (k0_pay19 c w tc tw v51 (ix2 q t)) := rfl

/-- The enclosing length less the union. -/
theorem pay22_apply :
    k0_pay22 c w tc tw v51 (ix2 q t)
      = k0_pay21 c w tc tw v51 (ix2 q t) - k0_pay19 c w tc tw v51 (ix2 q t) := rfl

end Pair

/-! ## The L1 distance of the unscaled segments at `(q, t)` -/

theorem pay7_apply (v28 : Vec Ideal S1x300x1 .f32) (v34 : Vec Ideal S1x32x1 .f32) (q : Fin 300) (t : Fin 32) :
    k0_pay7 (F := Ideal) v28 v34 (ix2 q t)
      = v28 (ix3 (0 : Fin 1) q (0 : Fin 1)) - v34 (ix3 (0 : Fin 1) t (0 : Fin 1)) := by
  unfold k0_pay7
  simp only [subf_apply, geom_bcol_apply, geom_brow_apply, pay3_apply, pay5_apply]

/-- The absolute value at an index: `|a| = max a (−a)` on the extended reals. -/
theorem geom_absf_apply {s : Shape} (x : FVec Ideal s .f32) (i : s.Idx) : absf x i = absE (x i) := rfl

/-- `|d| + |ow − tw|`. -/
theorem pay8_apply (ow : FVec Ideal S300x1 .f32) (tw : FVec Ideal S1x32 .f32) (d : FVec Ideal S300x32 .f32)
    (q : Fin 300) (t : Fin 32) :
    k0_pay8 ow tw d (ix2 q t) = absE (d (ix2 q t)) + absE (ow (ix2 q (0 : Fin 1)) - tw (ix2 (0 : Fin 1) t)) := by
  unfold k0_pay8
  simp only [addf_apply, geom_absf_apply, subf_apply, geom_bcol_apply, geom_brow_apply]

/-- One trip's stored block at `(0, q, t)`, with the class cost `v26` a variable. -/
theorem pay1_apply (v26 : FVec Ideal S300x32 .f32) (v28 v31 : Vec Ideal S1x300x1 .f32) (v34 v38 : Vec Ideal S1x32x1 .f32)
    (v51 : Vec Ideal S1x1x1 .f32) (q : Fin 300) (t : Fin 32) :
    k0_pay1 (F := Ideal) v26 (k0_pay8 (k0_pay4 v31) (k0_pay6 v38) (k0_pay7 v28 v34))
        (k0_pay20 (k0_pay3 v28) (k0_pay4 v31) (k0_pay5 v34) (k0_pay6 v38) v51)
        (k0_pay21 (k0_pay3 v28) (k0_pay4 v31) (k0_pay5 v34) (k0_pay6 v38) v51)
        (k0_pay22 (k0_pay3 v28) (k0_pay4 v31) (k0_pay5 v34) (k0_pay6 v38) v51) (ix3 (0 : Fin 1) q t)
      = (one * segCost (v28 (ix3 (0 : Fin 1) q (0 : Fin 1))) (v31 (ix3 (0 : Fin 1) q (0 : Fin 1)))
              (v34 (ix3 (0 : Fin 1) t (0 : Fin 1))) (v38 (ix3 (0 : Fin 1) t (0 : Fin 1)))
          + one * v26 (ix2 q t))
        + one * (0 - giou (v28 (ix3 (0 : Fin 1) q (0 : Fin 1))) (v31 (ix3 (0 : Fin 1) q (0 : Fin 1)))
              (v34 (ix3 (0 : Fin 1) t (0 : Fin 1))) (v38 (ix3 (0 : Fin 1) t (0 : Fin 1)))
              (v51 (ix3 (0 : Fin 1) (0 : Fin 1) (0 : Fin 1))) (v51 (ix3 (0 : Fin 1) (0 : Fin 1) (0 : Fin 1)))) := by
  unfold k0_pay1 segCost giou giouSE
  simp only [geom_out_apply, addf_apply, mulf_apply, subf_apply, divf_apply, broadcast_apply, Ideal.ofBits_def,
    Ideal.ofBits_zero_f32, pay8_apply, pay7_apply, pay20_apply, pay22_apply, pay18_apply, pay19_apply, pay21_apply,
    pay14_apply, pay15_apply, pay16_apply, pay17_apply, pay3_apply, pay4_apply, pay5_apply, pay6_apply, pay9_apply]

end Cert.MatchKernel

end
-- ==== Proof.KLoop.lean ====
/-
  What the kernel leaves in its output block at one grid point.

  The body is a counted loop over the 8 batch elements of the block; trip `k` loads batch element `k`'s slabs of the five
  inputs and stores ONE slab `[1, 300, 32]` of the output block at offset `(k, 0, 0)`. So the block's final contents are
  the eight slabs side by side along axis 0, and entry `(k, q, t)` is trip `k`'s stored value at `(0, q, t)`.
-/
import proofs.«405165_j11484742549831_3_alg».proof.Proof.Gen.KernelIdeal.Value
import Idealize.ShloMosaic.Lib.WritesUnit
import Idealize.ShloMosaic.Lib.ValueIdx

set_option maxRecDepth 16384

noncomputable section

namespace Cert.MatchKernel

open Cert.KernelIdeal Cert.KernelIdeal.Gen Idealize.ShloMosaic Idealize.ShloMosaic.TcCoe Idealize.ShloMosaic.Tactic
open Idealize.ShloMosaic.ValueIdx Idealize.SL Idealize.SL.Sem

variable {F : FTy → Type} [FloatOps F]

/-- The value one trip stores, from its seven loads: the labels' one-hot product with the softmax rows (`k0_pay2`), the L1
    distance (`k0_pay8`), the IoU, the enclosing length and its excess over the union (`k0_pay20` … `22`), combined (`k0_pay1`). -/
def tripPay (v0 : IVec S200x32 32) (v3 : Vec F S1x300x200 .f32) (v17 : Vec F S1x1x32 .i32) (v28 v31 : Vec F S1x300x1 .f32)
    (v34 v38 : Vec F S1x32x1 .f32) (v51 : Vec F S1x1x1 .f32) : FVec F S1x300x32 .f32 :=
  k0_pay1 (k0_pay2 v0 v3 v17) (k0_pay8 (k0_pay4 v31) (k0_pay6 v38) (k0_pay7 v28 v34))
    (k0_pay20 (k0_pay3 v28) (k0_pay4 v31) (k0_pay5 v34) (k0_pay6 v38) v51)
    (k0_pay21 (k0_pay3 v28) (k0_pay4 v31) (k0_pay5 v34) (k0_pay6 v38) v51)
    (k0_pay22 (k0_pay3 v28) (k0_pay4 v31) (k0_pay5 v34) (k0_pay6 v38) v51)

/-- The loop has eight trips. -/
theorem trips_eq : k0_t1_loop.trips = 8 := by decide +kernel

section Trip

variable (𝒱 : Variants) (c : Dev nD) (bd : Option 𝒱.V) (i : grid0.Coords)
  (arg1 : Memref sig .tc .vmem S8x300x200 .f32) (harg1 : arg1.IsWhole) (arg2 : Memref sig .tc .vmem S8x300x2 .f32) (harg2 : arg2.IsWhole)
  (arg3 : Memref sig .tc .vmem S8x32x2 .f32) (harg3 : arg3.IsWhole) (arg4 : Memref sig .tc .vmem S8x1x1 .f32) (harg4 : arg4.IsWhole)
  (arg5 : Memref sig .tc .vmem S8x1x32 .i32) (harg5 : arg5.IsWhole) (arg6 : Memref sig .tc .vmem S8x300x32 .f32) (harg6 : arg6.IsWhole)
  (v0 : IVec S200x32 32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty)

/-- Trip `k`'s stored slab, as a function of the buffers' contents: `tripPay` of the seven loads of batch element `k`. -/
def slab (k : Fin k0_t1_loop.trips) : (⟨3, S1x300x32.size⟩ : Shape).Idx → Elt F .f32 :=
  tripPay v0
    (arg1.view.readAt (Elt F) (Rect.unit (s := S8x300x200) (k0_off1 k) S1x300x200.size (k0_off1_inb k)).toLoadRect X1)
    (arg5.view.readAt (Elt F) (Rect.unit (s := S8x1x32) (k0_off2 k) S1x1x32.size (k0_off2_inb k)).toLoadRect X5)
    (arg2.view.readAt (Elt F) (Rect.unit (s := S8x300x2) (k0_off3 k) S1x300x1.size (k0_off3_inb k)).toLoadRect X2)
    (arg2.view.readAt (Elt F) (Rect.unit (s := S8x300x2) (k0_off4 k) S1x300x1.size (k0_off4_inb k)).toLoadRect X2)
    (arg3.view.readAt (Elt F) (Rect.unit (s := S8x32x2) (k0_off5 k) S1x32x1.size (k0_off5_inb k)).toLoadRect X3)
    (arg3.view.readAt (Elt F) (Rect.unit (s := S8x32x2) (k0_off6 k) S1x32x1.size (k0_off6_inb k)).toLoadRect X3)
    (arg4.view.readAt (Elt F) (Rect.unit (s := S8x1x1) (k0_off7 k) S1x1x1.size (k0_off7_inb k)).toLoadRect X4)

/-- One trip writes exactly one piece: its slab, through the unit-stride rectangle at the trip's offset. -/
theorem tripL_eq (k : Fin k0_t1_loop.trips) :
    tripL_k0_t1 (F := F) 𝒱 c bd i arg1 harg1 arg2 harg2 arg3 harg3 arg4 harg4 arg5 harg5 arg6 harg6 v0 X1 X2 X3 X4 X5 k
      = [⟨Rect.unit (s := S8x300x32) (k0_off8 k) S1x300x32.size (k0_off8_inb k),
          slab arg1 arg2 arg3 arg4 arg5 v0 X1 X2 X3 X4 X5 k⟩] := by
  unfold tripL_k0_t1 trip_k0_t1
  dsimp only
  sl_unfold_words
  rfl

/-- The pieces of the first `n` trips are the first `n` of eight tile stores kept apart by axis 0. -/
theorem pb_eq_tiles : ∀ (n : ℕ) (hn : n ≤ k0_t1_loop.trips),
    pb_k0_t1 (F := F) 𝒱 c bd i arg1 harg1 arg2 harg2 arg3 harg3 arg4 harg4 arg5 harg5 arg6 harg6 v0 X1 X2 X3 X4 X5 n
      = View.tilePieces (s := S8x300x32) S1x300x32.size (fun k => k0_off8 k) (fun k => k0_off8_inb k)
          (fun k => slab arg1 arg2 arg3 arg4 arg5 v0 X1 X2 X3 X4 X5 k) n hn
  | 0, _ => rfl
  | n + 1, hn => by
    have h := pb_k0_t1_succ (F := F) 𝒱 c bd i arg1 harg1 arg2 harg2 arg3 harg3 arg4 harg4 arg5 harg5 arg6 harg6 v0 X1 X2 X3 X4 X5 ⟨n, hn⟩
    rw [show (⟨n, hn⟩ : Fin k0_t1_loop.trips).val + 1 = n + 1 from rfl] at h
    rw [h, tripL_eq, pb_eq_tiles n (Nat.le_of_succ_le hn), View.tilePieces_succ]
    rfl

end Trip

section Block

variable (c : Dev nD) (i : grid0.Coords)
  (arg1 : Memref sig .tc .vmem S8x300x200 .f32) (harg1 : arg1.IsWhole) (arg2 : Memref sig .tc .vmem S8x300x2 .f32) (harg2 : arg2.IsWhole)
  (arg3 : Memref sig .tc .vmem S8x32x2 .f32) (harg3 : arg3.IsWhole) (arg4 : Memref sig .tc .vmem S8x1x1 .f32) (harg4 : arg4.IsWhole)
  (arg5 : Memref sig .tc .vmem S8x1x32 .i32) (harg5 : arg5.IsWhole) (arg6 : Memref sig .tc .vmem S8x300x32 .f32) (harg6 : arg6.IsWhole)
  (x0 : Vec F S8x300x200 .f32) (x1 : Vec F S8x300x2 .f32) (x2 : Vec F S8x32x2 .f32) (x3 : Vec F S8x1x1 .f32) (x4 : Vec F S8x1x32 .i32)

/-- The class numbers down the rows of a `[200, 32]` table: what the kernel compares the labels with. -/
abbrev classIota : IVec S200x32 32 := iota .tc S200x32 32 [0] iota_S200x32_d0_w32

/-- Batch element `k`'s seven loads, as plain reads of the input blocks: the scores' slab, the labels' row, the two columns of the
    query segments, the two columns of the target segments, the length. -/
def slabOf (k : Fin 8) : FVec F S1x300x32 .f32 :=
  tripPay classIota
    (fun z : S1x300x200.Idx => x0 (ix3 k (z 1) (z 2)))
    (fun z : S1x1x32.Idx => x4 (ix3 k (z 1) (z 2)))
    (fun z : S1x300x1.Idx => x1 (ix3 k (z 1) (0 : Fin 2)))
    (fun z : S1x300x1.Idx => x1 (ix3 k (z 1) (1 : Fin 2)))
    (fun z : S1x32x1.Idx => x2 (ix3 k (z 1) (0 : Fin 2)))
    (fun z : S1x32x1.Idx => x2 (ix3 k (z 1) (1 : Fin 2)))
    (fun z : S1x1x1.Idx => x3 (ix3 k (z 1) (z 2)))

/-- The run's pieces for the output block are those of the loop's eight trips, over the input blocks as contents. -/
theorem run_pieces :
    (kernelRun0_A (F := F) c i arg1 harg1 arg2 harg2 arg3 harg3 arg4 harg4 arg5 harg5 arg6 harg6 x0 x1 x2 x3 x4).1
      = pb_k0_t1 (F := F) Variants.none c none i arg1 harg1 arg2 harg2 arg3 harg3 arg4 harg4 arg5 harg5 arg6 harg6 classIota
          (harg1.unread x0) (harg2.unread x1) (harg3.unread x2) (harg4.unread x3) (harg5.unread x4) k0_t1_loop.trips := by
  unfold kernelRun0_A
  dsimp only
  sl_unfold_words
  rfl

/-- A load through a unit-stride rectangle of a whole buffer that holds `X` reads `X` at the rectangle's indices. -/
theorem readAt_unread {S : Shape} {e : EltTy} (m : Memref sig .tc .vmem S e) (hm : m.IsWhole) (X : S.Idx → Elt F e)
    (off size : Fin S.rank → ℕ) (inb : ∀ a, off a + size a ≤ S.size a) :
    m.view.readAt (Elt F) (Rect.unit (s := S) off size inb).toLoadRect (hm.unread X)
      = fun z => X ((Rect.unit (s := S) off size inb).toLoadRect.idx z) := by
  funext z
  show m.view.read (Elt F) (hm.unread X) _ = _
  rw [hm.read_unread]

/-- With the staging buffers holding the input blocks, trip `k`'s slab is batch element `k`'s: each load's rectangle starts at
    `(k, 0, 0)` (at `(k, 0, 1)` for the two width columns), so it reads the block at `k` plus the position inside the slab. -/
theorem slab_eq_slabOf (k : Fin k0_t1_loop.trips) (k' : Fin 8) (hk : k.val = k'.val) :
    slab (F := F) arg1 arg2 arg3 arg4 arg5 classIota (harg1.unread x0) (harg2.unread x1) (harg3.unread x2) (harg4.unread x3)
        (harg5.unread x4) k
      = slabOf x0 x1 x2 x3 x4 k' := by
  unfold slab slabOf
  rw [readAt_unread arg1 harg1 x0, readAt_unread arg5 harg5 x4, readAt_unread arg2 harg2 x1, readAt_unread arg2 harg2 x1,
    readAt_unread arg3 harg3 x2, readAt_unread arg3 harg3 x2, readAt_unread arg4 harg4 x3]
  have h1 := k0_off1_eq k; have h2 := k0_off2_eq k; have h3 := k0_off3_eq k; have h4 := k0_off4_eq k
  have h5 := k0_off5_eq k; have h6 := k0_off6_eq k; have h7 := k0_off7_eq k
  have e1 : ∀ z : S1x300x200.Idx, (Rect.unit (s := S8x300x200) (k0_off1 k) S1x300x200.size (k0_off1_inb k)).idx z = ix3 k' (z 1) (z 2) := by
    intro z; funext a; refine Fin.ext ?_
    have z0 : (z 0).val < 1 := (z 0).isLt
    match a with
    | ⟨0, _⟩ => show k0_off1 k 0 + 1 * (z 0).val = k'.val; rw [h1]; show k.val + 1 * (z 0).val = k'.val; omega
    | ⟨1, _⟩ => show k0_off1 k 1 + 1 * (z 1).val = (z 1).val; rw [h1]; show 0 + 1 * (z 1).val = (z 1).val; omega
    | ⟨2, _⟩ => show k0_off1 k 2 + 1 * (z 2).val = (z 2).val; rw [h1]; show 0 + 1 * (z 2).val = (z 2).val; omega
  have e2 : ∀ z : S1x1x32.Idx, (Rect.unit (s := S8x1x32) (k0_off2 k) S1x1x32.size (k0_off2_inb k)).idx z = ix3 k' (z 1) (z 2) := by
    intro z; funext a; refine Fin.ext ?_
    have z0 : (z 0).val < 1 := (z 0).isLt
    match a with
    | ⟨0, _⟩ => show k0_off2 k 0 + 1 * (z 0).val = k'.val; rw [h2]; show k.val + 1 * (z 0).val = k'.val; omega
    | ⟨1, _⟩ => show k0_off2 k 1 + 1 * (z 1).val = (z 1).val; rw [h2]; show 0 + 1 * (z 1).val = (z 1).val; omega
    | ⟨2, _⟩ => show k0_off2 k 2 + 1 * (z 2).val = (z 2).val; rw [h2]; show 0 + 1 * (z 2).val = (z 2).val; omega
  have e3 : ∀ z : S1x300x1.Idx, (Rect.unit (s := S8x300x2) (k0_off3 k) S1x300x1.size (k0_off3_inb k)).idx z = ix3 k' (z 1) (0 : Fin 2) := by
    intro z; funext a; refine Fin.ext ?_
    have z0 : (z 0).val < 1 := (z 0).isLt
    have z2 : (z 2).val < 1 := (z 2).isLt
    match a with
    | ⟨0, _⟩ => show k0_off3 k 0 + 1 * (z 0).val = k'.val; rw [h3]; show k.val + 1 * (z 0).val = k'.val; omega
    | ⟨1, _⟩ => show k0_off3 k 1 + 1 * (z 1).val = (z 1).val; rw [h3]; show 0 + 1 * (z 1).val = (z 1).val; omega
    | ⟨2, _⟩ => show k0_off3 k 2 + 1 * (z 2).val = 0; rw [h3]; show 0 + 1 * (z 2).val = 0; omega
  have e4 : ∀ z : S1x300x1.Idx, (Rect.unit (s := S8x300x2) (k0_off4 k) S1x300x1.size (k0_off4_inb k)).idx z = ix3 k' (z 1) (1 : Fin 2) := by
    intro z; funext a; refine Fin.ext ?_
    have z0 : (z 0).val < 1 := (z 0).isLt
    have z2 : (z 2).val < 1 := (z 2).isLt
    match a with
    | ⟨0, _⟩ => show k0_off4 k 0 + 1 * (z 0).val = k'.val; rw [h4]; show k.val + 1 * (z 0).val = k'.val; omega
    | ⟨1, _⟩ => show k0_off4 k 1 + 1 * (z 1).val = (z 1).val; rw [h4]; show 0 + 1 * (z 1).val = (z 1).val; omega
    | ⟨2, _⟩ => show k0_off4 k 2 + 1 * (z 2).val = 1; rw [h4]; show 1 + 1 * (z 2).val = 1; omega
  have e5 : ∀ z : S1x32x1.Idx, (Rect.unit (s := S8x32x2) (k0_off5 k) S1x32x1.size (k0_off5_inb k)).idx z = ix3 k' (z 1) (0 : Fin 2) := by
    intro z; funext a; refine Fin.ext ?_
    have z0 : (z 0).val < 1 := (z 0).isLt
    have z2 : (z 2).val < 1 := (z 2).isLt
    match a with
    | ⟨0, _⟩ => show k0_off5 k 0 + 1 * (z 0).val = k'.val; rw [h5]; show k.val + 1 * (z 0).val = k'.val; omega
    | ⟨1, _⟩ => show k0_off5 k 1 + 1 * (z 1).val = (z 1).val; rw [h5]; show 0 + 1 * (z 1).val = (z 1).val; omega
    | ⟨2, _⟩ => show k0_off5 k 2 + 1 * (z 2).val = 0; rw [h5]; show 0 + 1 * (z 2).val = 0; omega
  have e6 : ∀ z : S1x32x1.Idx, (Rect.unit (s := S8x32x2) (k0_off6 k) S1x32x1.size (k0_off6_inb k)).idx z = ix3 k' (z 1) (1 : Fin 2) := by
    intro z; funext a; refine Fin.ext ?_
    have z0 : (z 0).val < 1 := (z 0).isLt
    have z2 : (z 2).val < 1 := (z 2).isLt
    match a with
    | ⟨0, _⟩ => show k0_off6 k 0 + 1 * (z 0).val = k'.val; rw [h6]; show k.val + 1 * (z 0).val = k'.val; omega
    | ⟨1, _⟩ => show k0_off6 k 1 + 1 * (z 1).val = (z 1).val; rw [h6]; show 0 + 1 * (z 1).val = (z 1).val; omega
    | ⟨2, _⟩ => show k0_off6 k 2 + 1 * (z 2).val = 1; rw [h6]; show 1 + 1 * (z 2).val = 1; omega
  have e7 : ∀ z : S1x1x1.Idx, (Rect.unit (s := S8x1x1) (k0_off7 k) S1x1x1.size (k0_off7_inb k)).idx z = ix3 k' (z 1) (z 2) := by
    intro z; funext a; refine Fin.ext ?_
    have z0 : (z 0).val < 1 := (z 0).isLt
    match a with
    | ⟨0, _⟩ => show k0_off7 k 0 + 1 * (z 0).val = k'.val; rw [h7]; show k.val + 1 * (z 0).val = k'.val; omega
    | ⟨1, _⟩ => show k0_off7 k 1 + 1 * (z 1).val = (z 1).val; rw [h7]; show 0 + 1 * (z 1).val = (z 1).val; omega
    | ⟨2, _⟩ => show k0_off7 k 2 + 1 * (z 2).val = (z 2).val; rw [h7]; show 0 + 1 * (z 2).val = (z 2).val; omega
  simp only [e1, e2, e3, e4, e5, e6, e7]
  rfl

/-- ENTRY `(k, q, t)` OF THE OUTPUT BLOCK after the body: batch element `k`'s slab at `(0, q, t)` — the eight trips' slabs sit side by
    side along axis 0, so the entry lies under trip `k`'s piece alone. -/
theorem out_entry (k : Fin 8) (q : Fin 300) (t : Fin 32) :
    out0_A_5 (F := F) c i arg1 harg1 arg2 harg2 arg3 harg3 arg4 harg4 arg5 harg5 arg6 harg6 x0 x1 x2 x3 x4 (ix3 k q t)
      = slabOf x0 x1 x2 x3 x4 k (ix3 (0 : Fin 1) q t) := by
  unfold out0_A_5
  rw [run_pieces, pb_eq_tiles _ _ _ _ _ _ _ _ _ _ _ _ _ _ _ _ _ _ _ _ _ _ k0_t1_loop.trips (Nat.le_refl _)]
  have hk8 : k.val < k0_t1_loop.trips := by rw [trips_eq]; exact k.isLt
  have hoff := k0_off8_eq ⟨k.val, hk8⟩
  refine (View.read_tilePieces VO0_5 VO0_5.junk S1x300x32.size (fun k => k0_off8 k) (fun k => k0_off8_inb k) _ k0_t1_loop.trips
    (Nat.le_refl _) (ix3 k q t) ⟨k.val, hk8⟩ hk8 (ix3 (0 : Fin 1) q t) ?_ (0 : Fin 3) ?_).trans ?_
  · intro a
    match a with
    | ⟨0, _⟩ => show k.val = k0_off8 ⟨k.val, hk8⟩ 0 + 0; rw [hoff]; rfl
    | ⟨1, _⟩ => show q.val = k0_off8 ⟨k.val, hk8⟩ 1 + q.val; rw [hoff]; show q.val = 0 + q.val; omega
    | ⟨2, _⟩ => show t.val = k0_off8 ⟨k.val, hk8⟩ 2 + t.val; rw [hoff]; show t.val = 0 + t.val; omega
  · intro i' hne
    have hv : i'.val ≠ k.val := fun h => hne (Fin.ext h)
    show k.val < k0_off8 i' 0 ∨ k0_off8 i' 0 + 1 ≤ k.val
    rw [k0_off8_eq i']
    show k.val < i'.val ∨ i'.val + 1 ≤ k.val
    omega
  · exact congrFun (slab_eq_slabOf arg1 harg1 arg2 harg2 arg3 harg3 arg4 harg4 arg5 harg5 x0 x1 x2 x3 x4 ⟨k.val, hk8⟩ k rfl) _

end Block

end Cert.MatchKernel

end
-- ==== Proof.KArrays.lean ====
/-
  The arrays the kernel's region finds, and their blocks.

  Before the region the program clamps the labels into `[0, 199]` (a signed maximum with 0, then a signed minimum with 199) and
  recasts them from `[64, 32]` to `[64, 1, 32]`, and recasts the lengths from `[64, 1]` to `[64, 1, 1]`. Grid point `t` stages
  batch elements `8t … 8t + 7` of every array: entry `(k, ·, ·)` of a block is entry `(8t + k, ·, ·)` of its array.
-/
import proofs.«405165_j11484742549831_3_alg».proof.Proof.Gen.KernelIdeal.Value
import proofs.«405165_j11484742549831_3_alg».proof.Proof.MatchCost
import proofs.«405165_j11484742549831_3_alg».proof.Proof.Labels
import Idealize.ShloMosaic.PureOps.Ideal
import Idealize.ShloMosaic.Lib.ValueIdx
import Idealize.ShloMosaic.Lib.Pipeline.Value
import Idealize.ShloMosaic.Lib.StableHlo.Run

set_option maxRecDepth 16384

noncomputable section

namespace Cert.MatchKernel

open Cert.KernelIdeal Cert.KernelIdeal.Gen Idealize.ShloMosaic Idealize.ShloMosaic.TcCoe Idealize.ShloMosaic.Tactic
open Idealize.ShloMosaic.ValueIdx Idealize.ShloMosaic.StableHlo Idealize.SL Idealize.SL.Sem Cert.MatchCost

variable (m : (ℓ : Loc nD τ sig) → Buf (Elt Ideal) ℓ)

/-- The labels argument as the program was launched with it. -/
abbrev labelsArg (c : Dev nD) : IVec S64x32 32 := m ((c : Thread nD τ).loc main_arg4)
/-- The lengths argument. -/
abbrev lensArg (c : Dev nD) : FVec Ideal S64x1 .f32 := m ((c : Thread nD τ).loc main_arg3)

/-- The lengths window's array is the lengths argument recast to `[64, 1, 1]`. -/
theorem V_lens (c : Dev nD) :
    (V m c main_v2 : S64x1x1.Idx → EReal) = shapeCast S64x1x1 (lensArg m c) shapeCasts_S64x1_S64x1x1 := by
  dsimp only [V]
  simp only [hostOps0, hostOps0_1, hostOps0_2, List.flatten_cons, List.flatten_nil, List.append_nil, List.cons_append, List.nil_append]
  after_results
  rfl

/-- The labels window's array is the labels argument clamped word by word into `[0, 199]`, recast to `[64, 1, 32]`. -/
theorem V_labels (c : Dev nD) :
    (V m c main_v1 : S64x1x32.Idx → BitVec 32)
      = shapeCast S64x1x32
          (minsi (broadcastInDim S64x32 ![] bcast_S_S64x32 (constantI S_ 32 199#32))
            (maxsi (broadcastInDim S64x32 ![] bcast_S_S64x32 (constantI S_ 32 0#32)) (labelsArg m c)))
          shapeCasts_S64x32_S64x1x32 := by
  dsimp only [V]
  simp only [hostOps0, hostOps0_1, hostOps0_2, List.flatten_cons, List.flatten_nil, List.append_nil, List.cons_append, List.nil_append]
  after_results
  rfl

end Cert.MatchKernel

end
-- ==== Proof.KFinal.lean ====
/-
  The kernel's result array is the specification.

  Grid point `t` handles batch elements `8t … 8t + 7`; its output block's entry `(k, q, u)` is the cost of query `q` against
  target `u` of batch element `8t + k`, computed from that batch element's slabs of the inputs. The eight blocks tile the
  `[64, 300, 32]` result, so the result is the specification `G` of the five arguments.
-/
import proofs.«405165_j11484742549831_3_alg».proof.Proof.Gen.KernelIdeal.Value
import proofs.«405165_j11484742549831_3_alg».proof.Proof.MatchCost
import proofs.«405165_j11484742549831_3_alg».proof.Proof.Labels
import proofs.«405165_j11484742549831_3_alg».proof.Proof.KClass
import proofs.«405165_j11484742549831_3_alg».proof.Proof.KGeom
import proofs.«405165_j11484742549831_3_alg».proof.Proof.KLoop
import proofs.«405165_j11484742549831_3_alg».proof.Proof.KArrays
import Idealize.ShloMosaic.PureOps.Ideal
import Idealize.ShloMosaic.Lib.ValueIdx
import Idealize.ShloMosaic.Lib.Pipeline.Value

set_option maxRecDepth 16384

noncomputable section

namespace Cert.MatchKernel

open Cert.KernelIdeal Cert.KernelIdeal.Gen Idealize.ShloMosaic Idealize.ShloMosaic.TcCoe Idealize.ShloMosaic.Tactic
open Idealize.ShloMosaic.ValueIdx Idealize.SL Idealize.SL.Sem Cert.MatchCost
open Idealize.ShloMosaic.Pipeline (Dat)

/-! ## One slab, from its batch element's inputs -/

/-- Batch element `k`'s slab of a block at `(0, q, u)` is the cost of the pair `(q, u)` from batch element `k`'s entries of the
    five input blocks, when target `u`'s (already clamped) label word is class `K`'s. -/
theorem slabOf_apply (x0 : Vec Ideal S8x300x200 .f32) (x1 : Vec Ideal S8x300x2 .f32) (x2 : Vec Ideal S8x32x2 .f32)
    (x3 : Vec Ideal S8x1x1 .f32) (x4 : Vec Ideal S8x1x32 .i32) (k : Fin 8) (q : Fin 300) (u : Fin 32) (K : Fin 200)
    (hK : x4 (ix3 k (0 : Fin 1) u) = BitVec.ofNat 32 K.val) :
    slabOf (F := Ideal) x0 x1 x2 x3 x4 k (ix3 (0 : Fin 1) q u)
      = cost (x1 (ix3 k q (0 : Fin 2))) (x1 (ix3 k q (1 : Fin 2))) (x2 (ix3 k u (0 : Fin 2))) (x2 (ix3 k u (1 : Fin 2)))
          (x3 (ix3 k (0 : Fin 1) (0 : Fin 1))) (x3 (ix3 k (0 : Fin 1) (0 : Fin 1)))
          (prob (fun cc => x0 (ix3 k q cc)) K) := by
  unfold slabOf tripPay
  rw [pay1_apply, pay2_apply _ _ q u K hK]
  rfl

/-! ## The blocks of the arrays -/

variable (m : (ℓ : Loc nD τ sig) → Buf (Elt Ideal) ℓ)

/-- Every window's block index at point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- A grid point is one of eight. -/
theorem pt_lt (t : Fin cfg0.N) : t.val < 8 := lt_of_lt_of_eq (show t.val < grid0.N from t.isLt) N_0

/-- The batch element entry `k` of point `t`'s blocks belongs to. -/
def bat (t : Fin cfg0.N) (k : Fin 8) : Fin 64 := ⟨8 * t.val + k.val, by have := pt_lt t; have := k.isLt; omega⟩

/-- The five input blocks at point `t`, at their literal types. -/
abbrev B0 (c : Dev nD) (t : Fin cfg0.N) : Vec Ideal S8x300x200 .f32 := iblk m c 0 t
abbrev B1 (c : Dev nD) (t : Fin cfg0.N) : Vec Ideal S8x300x2 .f32 := iblk m c 1 t
abbrev B2 (c : Dev nD) (t : Fin cfg0.N) : Vec Ideal S8x32x2 .f32 := iblk m c 2 t
abbrev B3 (c : Dev nD) (t : Fin cfg0.N) : Vec Ideal S8x1x1 .f32 := iblk m c 3 t
abbrev B4 (c : Dev nD) (t : Fin cfg0.N) : Vec Ideal S8x1x32 .i32 := iblk m c 4 t

/-- The scores block: entry `(k, q, cc)` is the scores argument at `(8t + k, q, cc)`. -/
theorem B0_apply (c : Dev nD) (t : Fin cfg0.N) (k : Fin 8) (q : Fin 300) (cc : Fin 200) :
    B0 m c t (ix3 k q cc) = (m ((c : Thread nD τ).loc main_arg0) : S64x300x200.Idx → EReal) (ix3 (bat t k) q cc) := by
  obtain ⟨⟨e0, e1, e2⟩, -⟩ := idx_facts t
  unfold B0 iblk
  rw [View.read_apply]
  show V m c main_arg0 _ = _
  rw [V_main_arg0]
  congr 1
  funext a
  apply Fin.ext
  match a with
  | ⟨0, _⟩ => show win0_0.index t (0 : Fin 3) * 8 + 1 * k.val = 8 * t.val + k.val; rw [e0]; omega
  | ⟨1, _⟩ => show win0_0.index t (1 : Fin 3) * 300 + 1 * q.val = q.val; rw [e1]; omega
  | ⟨2, _⟩ => show win0_0.index t (2 : Fin 3) * 200 + 1 * cc.val = cc.val; rw [e2]; omega

/-- The query segments' block: entry `(k, q, d)` is the argument at `(8t + k, q, d)`. -/
theorem B1_apply (c : Dev nD) (t : Fin cfg0.N) (k : Fin 8) (q : Fin 300) (d : Fin 2) :
    B1 m c t (ix3 k q d) = (m ((c : Thread nD τ).loc main_arg1) : S64x300x2.Idx → EReal) (ix3 (bat t k) q d) := by
  obtain ⟨-, ⟨e0, e1, e2⟩, -⟩ := idx_facts t
  unfold B1 iblk
  rw [View.read_apply]
  show V m c main_arg1 _ = _
  rw [V_main_arg1]
  congr 1
  funext a
  apply Fin.ext
  match a with
  | ⟨0, _⟩ => show win0_1.index t (0 : Fin 3) * 8 + 1 * k.val = 8 * t.val + k.val; rw [e0]; omega
  | ⟨1, _⟩ => show win0_1.index t (1 : Fin 3) * 300 + 1 * q.val = q.val; rw [e1]; omega
  | ⟨2, _⟩ => show win0_1.index t (2 : Fin 3) * 2 + 1 * d.val = d.val; rw [e2]; omega

/-- The target segments' block: entry `(k, u, d)` is the argument at `(8t + k, u, d)`. -/
theorem B2_apply (c : Dev nD) (t : Fin cfg0.N) (k : Fin 8) (u : Fin 32) (d : Fin 2) :
    B2 m c t (ix3 k u d) = (m ((c : Thread nD τ).loc main_arg2) : S64x32x2.Idx → EReal) (ix3 (bat t k) u d) := by
  obtain ⟨-, -, ⟨e0, e1, e2⟩, -⟩ := idx_facts t
  unfold B2 iblk
  rw [View.read_apply]
  show V m c main_arg2 _ = _
  rw [V_main_arg2]
  congr 1
  funext a
  apply Fin.ext
  match a with
  | ⟨0, _⟩ => show win0_2.index t (0 : Fin 3) * 8 + 1 * k.val = 8 * t.val + k.val; rw [e0]; omega
  | ⟨1, _⟩ => show win0_2.index t (1 : Fin 3) * 32 + 1 * u.val = u.val; rw [e1]; omega
  | ⟨2, _⟩ => show win0_2.index t (2 : Fin 3) * 2 + 1 * d.val = d.val; rw [e2]; omega

/-- The lengths' block: entry `(k, 0, 0)` is the lengths argument at `(8t + k, 0)`, through the recast to `[64, 1, 1]`. -/
theorem B3_apply (c : Dev nD) (t : Fin cfg0.N) (k : Fin 8) :
    B3 m c t (ix3 k (0 : Fin 1) (0 : Fin 1)) = lensArg m c (ix2 (bat t k) (0 : Fin 1)) := by
  obtain ⟨-, -, -, ⟨e0, e1, e2⟩, -⟩ := idx_facts t
  have hblk : B3 m c t (ix3 k (0 : Fin 1) (0 : Fin 1))
      = (V m c main_v2 : S64x1x1.Idx → EReal) (ix3 (bat t k) (0 : Fin 1) (0 : Fin 1)) := by
    unfold B3 iblk
    rw [View.read_apply]
    show V m c main_v2 _ = _
    congr 1
    funext a
    apply Fin.ext
    match a with
    | ⟨0, _⟩ => show win0_3.index t (0 : Fin 3) * 8 + 1 * k.val = 8 * t.val + k.val; rw [e0]; omega
    | ⟨1, _⟩ => show win0_3.index t (1 : Fin 3) * 1 + 1 * 0 = 0; rw [e1]
    | ⟨2, _⟩ => show win0_3.index t (2 : Fin 3) * 1 + 1 * 0 = 0; rw [e2]
  rw [hblk, V_lens]
  exact shapeCast_apply (lensArg m c) shapeCasts_S64x1_S64x1x1 (ix3 (bat t k) (0 : Fin 1) (0 : Fin 1)) (ix2 (bat t k) (0 : Fin 1))
    (by rewrite [Shape.rowMajor_val_two, Shape.rowMajor_val_three]
        show (bat t k).val * 1 + 0 = ((bat t k).val * 1 + 0) * 1 + 0
        omega)

/-- The labels' block: entry `(k, 0, u)` is the word of the class the label at `(8t + k, u)` names — the label clamped into
    `[0, 199]` before the region, through the recast to `[64, 1, 32]`. -/
theorem B4_apply (c : Dev nD) (t : Fin cfg0.N) (k : Fin 8) (u : Fin 32) :
    B4 m c t (ix3 k (0 : Fin 1) u) = BitVec.ofNat 32 (cls (labelsArg m c (ix2 (bat t k) u))).val := by
  obtain ⟨-, -, -, -, ⟨e0, e1, e2⟩, -⟩ := idx_facts t
  have hblk : B4 m c t (ix3 k (0 : Fin 1) u)
      = (V m c main_v1 : S64x1x32.Idx → BitVec 32) (ix3 (bat t k) (0 : Fin 1) u) := by
    unfold B4 iblk
    rw [View.read_apply]
    show V m c main_v1 _ = _
    congr 1
    funext a
    apply Fin.ext
    match a with
    | ⟨0, _⟩ => show win0_4.index t (0 : Fin 3) * 8 + 1 * k.val = 8 * t.val + k.val; rw [e0]; omega
    | ⟨1, _⟩ => show win0_4.index t (1 : Fin 3) * 1 + 1 * 0 = 0; rw [e1]
    | ⟨2, _⟩ => show win0_4.index t (2 : Fin 3) * 32 + 1 * u.val = u.val; rw [e2]; omega
  rw [hblk, V_labels]
  refine (shapeCast_apply _ shapeCasts_S64x32_S64x1x32 (ix3 (bat t k) (0 : Fin 1) u) (ix2 (bat t k) u)
    (by rewrite [Shape.rowMajor_val_two, Shape.rowMajor_val_three]
        show (bat t k).val * 32 + u.val = ((bat t k).val * 1 + 0) * 32 + u.val
        omega)).trans ?_
  exact Cert.Labels.clip_word (labelsArg m c (ix2 (bat t k) u))

/-! ## The result array -/

/-- The specification of the arguments the program was launched with. -/
abbrev Gm (c : Dev nD) : S64x300x32.Idx → EReal :=
  G (m ((c : Thread nD τ).loc main_arg0) : S64x300x200.Idx → EReal) (m ((c : Thread nD τ).loc main_arg1) : S64x300x2.Idx → EReal)
    (m ((c : Thread nD τ).loc main_arg2) : S64x32x2.Idx → EReal) (lensArg m c) (labelsArg m c)

/-- Entry `(k, q, u)` of what the body leaves in the output block at point `t` is the specification at `(8t + k, q, u)`. -/
theorem flushed_entry (c : Dev nD) (t : Fin cfg0.N) (k : Fin 8) (q : Fin 300) (u : Fin 32) :
    out0_A_5 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (B0 m c t) (B1 m c t) (B2 m c t) (B3 m c t) (B4 m c t) (ix3 k q u)
      = Gm m c (ix3 (bat t k) q u) := by
  refine (out_entry (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (B0 m c t) (B1 m c t) (B2 m c t) (B3 m c t) (B4 m c t) k q u).trans ?_
  refine (slabOf_apply (B0 m c t) (B1 m c t) (B2 m c t) (B3 m c t) (B4 m c t) k q u
    (cls (labelsArg m c (ix2 (bat t k) u))) (B4_apply m c t k u)).trans ?_
  rw [B1_apply, B1_apply, B2_apply, B2_apply, B3_apply]
  have hrow : (fun cc => B0 m c t (ix3 k q cc))
      = fun cc => (m ((c : Thread nD τ).loc main_arg0) : S64x300x200.Idx → EReal) (ix3 (bat t k) q cc) :=
    funext fun cc => B0_apply m c t k q cc
  rw [hrow]
  rfl

/-- WHAT POINT `t` WRITES BACK is block `t` of the specification. -/
theorem flushed_eq (c : Dev nD) (t : Fin cfg0.N) :
    (dats m 0 c).flushed 5 t = ((cfg0.win 5).blk t).view.read (Elt Ideal) (Gm m c) := by
  obtain ⟨-, -, -, -, -, ⟨e0, e1, e2⟩⟩ := idx_facts t
  rw [Value.flushed5_A]
  refine funext fun (z : S8x300x32.Idx) => ?_
  obtain ⟨k, q, u, rfl⟩ : ∃ (k : Fin 8) (q : Fin 300) (u : Fin 32), z = ix3 k q u := ⟨z 0, z 1, z 2, eq_ix3 z⟩
  rw [View.read_apply]
  show out0_A_5 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (B0 m c t) (B1 m c t) (B2 m c t) (B3 m c t) (B4 m c t) (ix3 k q u)
      = Gm m c (((cfg0.win 5).blk t).view.emb (ix3 k q u))
  rw [flushed_entry]
  congr 1
  funext a
  apply Fin.ext
  match a with
  | ⟨0, _⟩ => show 8 * t.val + k.val = win0_5.index t (0 : Fin 3) * 8 + 1 * k.val; rw [e0]; omega
  | ⟨1, _⟩ => show q.val = win0_5.index t (1 : Fin 3) * 300 + 1 * q.val; rw [e1]; omega
  | ⟨2, _⟩ => show u.val = win0_5.index t (2 : Fin 3) * 32 + 1 * u.val; rw [e2]; omega

/-- THE RESULT ARRAY after the run is the specification of the arguments: every entry lies in some point's block, batch element
    `b` in point `b / 8`'s, so the eight written-back blocks are the whole array. -/
theorem final (c : Dev nD) : (dats m 0 c).arrAt 5 cfg0.N = Gm m c :=
  (dats m 0 c).arrAt_eq_of_cover 5 (Gm m c) (fun t _ => flushed_eq m c t) fun i => by
    have h0 : (i 0).val < 64 := (i 0).isLt
    have h1 : (i 1).val < 300 := (i 1).isLt
    have h2 : (i 2).val < 32 := (i 2).isLt
    have hlt : (i 0).val / 8 < cfg0.N := lt_of_lt_of_eq (show (i 0).val / 8 < 8 by omega) N_0.symm
    obtain ⟨-, -, -, -, -, ⟨e0, e1, e2⟩⟩ := idx_facts ⟨(i 0).val / 8, hlt⟩
    refine ⟨⟨(i 0).val / 8, hlt⟩, flush0_5 _, ?_⟩
    show i ∈ ((View.whole main_v3).slice (win0_5.rect ⟨(i 0).val / 8, hlt⟩)).set
    rw [View.set_slice_whole, Rect.mem_set_unit]
    intro a
    match a with
    | ⟨0, _⟩ =>
      show win0_5.index ⟨(i 0).val / 8, hlt⟩ (0 : Fin 3) * 8 ≤ (i 0).val ∧ (i 0).val < win0_5.index ⟨(i 0).val / 8, hlt⟩ (0 : Fin 3) * 8 + 8
      rw [e0]; show (i 0).val / 8 * 8 ≤ (i 0).val ∧ (i 0).val < (i 0).val / 8 * 8 + 8; omega
    | ⟨1, _⟩ =>
      show win0_5.index ⟨(i 0).val / 8, hlt⟩ (1 : Fin 3) * 300 ≤ (i 1).val ∧ (i 1).val < win0_5.index ⟨(i 0).val / 8, hlt⟩ (1 : Fin 3) * 300 + 300
      rw [e1]; omega
    | ⟨2, _⟩ =>
      show win0_5.index ⟨(i 0).val / 8, hlt⟩ (2 : Fin 3) * 32 ≤ (i 2).val ∧ (i 2).val < win0_5.index ⟨(i 0).val / 8, hlt⟩ (2 : Fin 3) * 32 + 32
      rw [e2]; omega

/-- The kernel's run, read: it ends with the result at the specification and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.MatchKernel

end
-- ==== Proof.FlatIdx.lean ====
/-
  The reference flattens (batch, query) into one row number `r = b·300 + q` and (batch, target) into one column
  number `o = b·32 + t`. These are the coordinates read back off the flattened numbers, and the flattened numbers
  built from the coordinates.
-/
import Idealize.ShloMosaic.Lib.ValueIdx

namespace Cert.FlatIdx

/-- The batch element of flattened query row `r`. -/
def rowB (r : Fin 19200) : Fin 64 := ⟨r.val / 300, by have := r.isLt; omega⟩
/-- The query of flattened query row `r`. -/
def rowQ (r : Fin 19200) : Fin 300 := ⟨r.val % 300, by have := r.isLt; omega⟩
/-- The batch element of flattened target column `o`. -/
def colB (o : Fin 2048) : Fin 64 := ⟨o.val / 32, by have := o.isLt; omega⟩
/-- The target of flattened target column `o`. -/
def colT (o : Fin 2048) : Fin 32 := ⟨o.val % 32, by have := o.isLt; omega⟩

/-- The flattened row of query `q` of batch element `b`. -/
def flatRow (b : Fin 64) (q : Fin 300) : Fin 19200 := ⟨b.val * 300 + q.val, by have := b.isLt; have := q.isLt; omega⟩
/-- The flattened column of target `t` of batch element `b`. -/
def flatCol (b : Fin 64) (t : Fin 32) : Fin 2048 := ⟨b.val * 32 + t.val, by have := b.isLt; have := t.isLt; omega⟩

theorem rowB_flatRow (b : Fin 64) (q : Fin 300) : rowB (flatRow b q) = b :=
  Fin.ext (by show (b.val * 300 + q.val) / 300 = b.val; have := q.isLt; omega)
theorem rowQ_flatRow (b : Fin 64) (q : Fin 300) : rowQ (flatRow b q) = q :=
  Fin.ext (by show (b.val * 300 + q.val) % 300 = q.val; have := q.isLt; omega)
theorem colB_flatCol (b : Fin 64) (t : Fin 32) : colB (flatCol b t) = b :=
  Fin.ext (by show (b.val * 32 + t.val) / 32 = b.val; have := t.isLt; omega)
theorem colT_flatCol (b : Fin 64) (t : Fin 32) : colT (flatCol b t) = t :=
  Fin.ext (by show (b.val * 32 + t.val) % 32 = t.val; have := t.isLt; omega)

end Cert.FlatIdx
-- ==== Proof.LibColGather.lean ====
/-
  A gather of whole COLUMNS of a rank-2 table, read at an index.

  What `x[:, idx]` of a table `x : [A, N]` at a vector of column numbers `idx : [M]` lowers to: a
  `stablehlo.gather` over the start indices kept as an `[M, 1]` column, with offset_dims `[0]`,
  collapsed_slice_dims `[1]`, start_index_map `[1]`, index_vector_dim `1` and slice_sizes `[A, 1]`; the result
  is `[A, M]`. Result entry `(b, o)` is the table's entry in row `b` and in the column that start index `o`
  names — the word read as a SIGNED integer and clamped into `[0, N − 1]`, as the gather clamps every start index
  so that its slice fits: a negative word names column 0, a word past the end the last column.
-/
import Idealize.ShloMosaic.Lib.ValueIdx

noncomputable section

namespace Cert.LibColGather

open Idealize.ShloMosaic Idealize.ShloMosaic.ValueIdx

variable {α : Type}

/-- The dimension numbers of the column gather for a table `[A, N]`, start indices `[M, 1]` and result `[A, M]`; their
    side conditions `wf` are decided on a program's literal shapes. -/
abbrev colDims (A N M : Nat) (wf : GatherDims.WF ⟨2, ![A, N]⟩ ⟨2, ![M, 1]⟩ ⟨2, ![A, M]⟩ [0] [1] [] [1] [] 1 ![A, 1]) :
    GatherDims ⟨2, ![A, N]⟩ ⟨2, ![M, 1]⟩ ⟨2, ![A, M]⟩ where
  offsetDims := [0]
  collapsedSliceDims := [1]
  operandBatchingDims := []
  startIndicesBatchingDims := []
  startIndexMap := [1]
  indexVectorDim := 1
  sliceSizes := ![A, 1]
  wf := wf

variable {A N M w : Nat} (wf : GatherDims.WF ⟨2, ![A, N]⟩ ⟨2, ![M, 1]⟩ ⟨2, ![A, M]⟩ [0] [1] [] [1] [] 1 ![A, 1])

/-- On the table's ROW axis the gather reads the result's own row: that axis is not start-indexed, and the result's
    one offset axis runs along it. -/
theorem operandIdx_row (idx : IVec ⟨2, ![M, 1]⟩ w) (y : (⟨2, ![A, M]⟩ : Shape).Idx) :
    ((colDims A N M wf).operandIdx y idx 0).val = (y 0).val := by
  show (colDims A N M wf).start y idx 0 + (colDims A N M wf).batchCoord y 0 + (colDims A N M wf).offCoord y 0 = _
  rw [GatherDims.batchCoord_eq_zero _ _ _ List.not_mem_nil, Nat.add_zero]
  unfold GatherDims.start
  rw [dif_neg (show (0 : Fin 2) ∉ (colDims A N M wf).startIndexMap from
    (by decide : (0 : Fin 2) ∉ ([1] : List (Fin 2)))), Nat.zero_add]
  unfold GatherDims.offCoord
  rw [dif_pos (show (0 : Fin 2) ∈ (colDims A N M wf).sKept from
    (GatherDims.mem_sKept _ _).mpr ⟨(by decide : (0 : Fin 2) ∉ ([1] : List (Fin 2))), List.not_mem_nil⟩)]
  rfl

/-- On the table's COLUMN axis the gather reads the column the start index names, clamped into the table: the axis is
    collapsed (no offset) and start-indexed, and result column `o` reads start index `o`. -/
theorem operandIdx_col (idx : IVec ⟨2, ![M, 1]⟩ w) (y : (⟨2, ![A, M]⟩ : Shape).Idx) :
    ((colDims A N M wf).operandIdx y idx 1).val = min (idx (ix2 (y 1) (0 : Fin 1))).toInt.toNat (N - 1) := by
  show (colDims A N M wf).start y idx 1 + (colDims A N M wf).batchCoord y 1 + (colDims A N M wf).offCoord y 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims A N M wf).startIndexMap from List.mem_singleton.mpr rfl)]
  have hsi : (colDims A N M wf).siIdx y ⟨List.idxOf (1 : Fin 2) (colDims A N M wf).startIndexMap,
      List.idxOf_lt_length_iff.2 (List.mem_singleton.mpr rfl)⟩ = ix2 (y 1) (0 : Fin 1) := by
    funext b; refine Fin.ext ?_
    match b with
    | ⟨0, _⟩ => rfl
    | ⟨1, _⟩ => rfl
  rw [hsi]
  rfl

/-- THE COLUMN GATHER READ AT `(b, o)`: the table at row `b` and at the column start index `o` names, read signed and
    clamped into `[0, N − 1]`. -/
theorem gather_cols_apply (hN : 0 < N) (x : (⟨2, ![A, N]⟩ : Shape).Idx → α) (idx : IVec ⟨2, ![M, 1]⟩ w)
    (y : (⟨2, ![A, M]⟩ : Shape).Idx) :
    Host.gather (colDims A N M wf) x idx y
      = x (ix2 (y 0) ⟨min (idx (ix2 (y 1) (0 : Fin 1))).toInt.toNat (N - 1), by omega⟩) := by
  unfold Host.gather
  congr 1
  funext a
  refine Fin.ext ?_
  match a with
  | ⟨0, _⟩ => exact operandIdx_row wf idx y
  | ⟨1, _⟩ => exact operandIdx_col wf idx y

/-- The same at an index given by its coordinates: entry `(b, o)` reads row `b`, and the column start index `o` names. -/
theorem gather_cols_ix2 (hN : 0 < N) (x : (⟨2, ![A, N]⟩ : Shape).Idx → α) (idx : IVec ⟨2, ![M, 1]⟩ w) (b : Fin A) (o : Fin M) :
    Host.gather (colDims A N M wf) x idx (ix2 b o)
      = x (ix2 b ⟨min (idx (ix2 o (0 : Fin 1))).toInt.toNat (N - 1), by omega⟩) :=
  gather_cols_apply wf hN x idx (ix2 b o)

end Cert.LibColGather

end
-- ==== Proof.RefClass.lean ====
/-
  The reference's class cost at flattened row `r` and flattened column `o`: minus the softmax entry, of row `r`'s
  scores, at the class the label of column `o` names.
-/
import proofs.«405165_j11484742549831_3_alg».proof.Proof.Gen.ReferenceIdeal.Read
import proofs.«405165_j11484742549831_3_alg».proof.Proof.MatchCost
import proofs.«405165_j11484742549831_3_alg».proof.Proof.FlatIdx
import proofs.«405165_j11484742549831_3_alg».proof.Proof.Labels
import proofs.«405165_j11484742549831_3_alg».proof.Proof.LibColGather
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.MatchRef

open Cert.ReferenceIdeal Cert.ReferenceIdeal.Gen Cert.ReferenceIdeal.Read Idealize.ShloMosaic Idealize.ShloMosaic.ValueIdx
open Cert.MatchCost Cert.FlatIdx

/-- Row `r` of the flattened score table is query `rowQ r` of batch element `rowB r`. -/
theorem class_v0_at (x0 : (⟨S64x300x200, .f32⟩ : BufTy).Contents (Elt Ideal)) (r : Fin 19200) (c : Fin 200) :
    val_main_v0 (F := Ideal) x0 (ix2 r c) = x0 (ix3 (rowB r) (rowQ r) c) := by
  rw [val_main_v0_apply]
  refine congrArg x0 (funext fun a => Fin.ext ?_)
  have hr := r.isLt
  have hc := c.isLt
  match a with
  | ⟨0, _⟩ => show (r.val * 200 + c.val) / 60000 = r.val / 300; omega
  | ⟨1, _⟩ => show (r.val * 200 + c.val) / 200 % 300 = r.val % 300; omega
  | ⟨2, _⟩ => show (r.val * 200 + c.val) % 200 = c.val; omega

/-- Row number `r` with class `k` inserted on the reduced axis is the table index `(r, k)`. -/
theorem class_lift_row (h : S19200x200.Reduces [1] S19200) (r : Fin 19200) (k : Fin (S19200x200.size 1)) :
    h.lift (ix1 r) k = ix2 r (⟨k.val, k.isLt⟩ : Fin 200) := by
  funext c; apply Fin.ext
  fin_cases c <;> rfl

/-- The reduce with a maximum body over the class axis is the fold of `max` from `−∞` over the row's 200 scores. -/
theorem class_v1_at (x0 : (⟨S64x300x200, .f32⟩ : BufTy).Contents (Elt Ideal)) (r : Fin 19200) :
    val_main_v1 (F := Ideal) x0 (ix1 r)
      = (Finset.univ : Finset (Fin 200)).fold max negInf (fun c => x0 (ix3 (rowB r) (rowQ r) c)) := by
  have h : S19200x200.Reduces [1] S19200 := by decide
  unfold val_main_v1
  rw [Host.reduce_eq_fold_single FloatOps.maximumf _ _ reducesTo_S19200x200_S19200_d1 h h_S_]
  have hf : (val_main_v0 (F := Ideal) x0 ∘ h.lift (ix1 r)) = fun c : Fin 200 => x0 (ix3 (rowB r) (rowQ r) c) :=
    funext fun k => by
      show val_main_v0 (F := Ideal) x0 (h.lift (ix1 r) k) = _
      rw [class_lift_row]
      exact class_v0_at x0 r ⟨k.val, k.isLt⟩
  rw [hf]
  rfl

/-- The row's maximum as the reference spells it: the maximum of `−∞` and the fold. -/
theorem class_v3_at (x0 : (⟨S64x300x200, .f32⟩ : BufTy).Contents (Elt Ideal)) (r : Fin 19200) :
    val_main_v3 (F := Ideal) x0 (ix1 r) = rowMax (fun c => x0 (ix3 (rowB r) (rowQ r) c)) := by
  rw [val_main_v3_apply, val_main_v2_apply, val_main_cst_0_apply, class_v1_at]
  rfl

/-- The row's maximum broadcast along the class axis. -/
theorem class_v5_at (x0 : (⟨S64x300x200, .f32⟩ : BufTy).Contents (Elt Ideal)) (r : Fin 19200) (c : Fin 200) :
    val_main_v5 (F := Ideal) x0 (ix2 r c) = rowMax (fun c => x0 (ix3 (rowB r) (rowQ r) c)) := by
  rw [val_main_v5_apply, val_main_v4_apply]
  have hi : idx_main_v4 (idx_main_v5 (ix2 r c)) = ix1 r := funext fun a => by
    match a with
    | ⟨0, _⟩ => rfl
  rw [hi, class_v3_at]

/-- The shifted exponential of class `c` of row `r`. -/
theorem class_v7_at (x0 : (⟨S64x300x200, .f32⟩ : BufTy).Contents (Elt Ideal)) (r : Fin 19200) (c : Fin 200) :
    val_main_v7 (F := Ideal) x0 (ix2 r c) = expRow (fun c => x0 (ix3 (rowB r) (rowQ r) c)) c := by
  rw [val_main_v7_apply, val_main_v6_apply, class_v0_at, class_v5_at]
  rfl

/-- The row's sum of shifted exponentials: the reduce starts from the literal 0, which adds nothing. -/
theorem class_v8_at (x0 : (⟨S64x300x200, .f32⟩ : BufTy).Contents (Elt Ideal)) (r : Fin 19200) :
    val_main_v8 (F := Ideal) x0 (ix1 r) = ∑ c : Fin 200, expRow (fun c => x0 (ix3 (rowB r) (rowQ r) c)) c := by
  rw [val_main_v8_apply, val_main_cst_1_apply, Ideal.ofBits_def, Ideal.ofBits_zero_f32, zero_add]
  refine Finset.sum_congr rfl fun k _ => ?_
  have hi : idx_main_v8 (ix1 r) k = ix2 r k := funext fun a => by
    match a with
    | ⟨0, _⟩ => rfl
    | ⟨1, _⟩ => rfl
  rw [hi, class_v7_at]

/-- The softmax entry of class `c` of row `r`. -/
theorem class_v11_at (x0 : (⟨S64x300x200, .f32⟩ : BufTy).Contents (Elt Ideal)) (r : Fin 19200) (c : Fin 200) :
    val_main_v11 (F := Ideal) x0 (ix2 r c) = prob (fun c => x0 (ix3 (rowB r) (rowQ r) c)) c := by
  rw [val_main_v11_apply, val_main_v10_apply, val_main_v9_apply]
  have hi : idx_main_v9 (idx_main_v10 (ix2 r c)) = ix1 r := funext fun a => by
    match a with
    | ⟨0, _⟩ => rfl
  rw [hi, class_v8_at, class_v7_at]
  rfl

/-- The start index of column `o`: the label of target `colT o` of batch element `colB o`, which being non-negative
    is its own wrap-around normalisation. -/
theorem class_v28_at (x4 : (⟨S64x32, .i32⟩ : BufTy).Contents (Elt Ideal)) (hlab : ∀ i : S64x32.Idx, 0 ≤ (x4 i).toInt) (o : Fin 2048) :
    val_main_v28 (F := Ideal) x4 (ix2 o (0 : Fin 1)) = x4 (ix2 (colB o) (colT o)) := by
  rw [val_main_v28_apply, val_main_v27_apply, val_main_v24_apply, val_main_v26_apply, val_main_v17_apply,
    val_main_v23_apply, val_main_c_apply, val_main_v25_apply, val_main_c_2_apply]
  have hi : idx_main_v17 (idx_main_v28 (ix2 o (0 : Fin 1))) = ix2 (colB o) (colT o) := funext fun a => by
    match a with
    | ⟨0, _⟩ => rfl
    | ⟨1, _⟩ => rfl
  rw [hi]
  exact Cert.Labels.norm_nonneg _ (hlab _)

/-- The negated gather of the softmax table: row `r` is query `rowQ r` of batch element `rowB r`, column `o` is target
    `colT o` of batch element `colB o`; a non-negative label is its own normalisation, and the gather clamps it. -/
theorem ref_class (x0 : (⟨S64x300x200, .f32⟩ : BufTy).Contents (Elt Ideal)) (x4 : (⟨S64x32, .i32⟩ : BufTy).Contents (Elt Ideal))
    (hlab : ∀ i : S64x32.Idx, 0 ≤ (x4 i).toInt) (r : Fin 19200) (o : Fin 2048) :
    val_main_v30 (F := Ideal) x0 x4 (ix2 r o)
      = 0 - prob (fun c => x0 (ix3 (rowB r) (rowQ r) c)) (cls (x4 (ix2 (colB o) (colT o)))) := by
  rw [val_main_v30_apply]
  unfold val_main_v29
  have hg : gather_S19200x200_S2048x1_S19200x2048_0_1_n_n_1_1_192001
      = Cert.LibColGather.colDims 19200 200 2048 gather_S19200x200_S2048x1_S19200x2048_0_1_n_n_1_1_192001_wf := rfl
  rw [hg, Cert.LibColGather.gather_cols_ix2 _ (by decide), class_v11_at]
  have hk : min (val_main_v28 (F := Ideal) x4 (ix2 o (0 : Fin 1))).toInt.toNat (200 - 1)
      = (cls (x4 (ix2 (colB o) (colT o)))).val := by
    rw [class_v28_at x4 hlab]
    rfl
  have hc : ∀ h : min (val_main_v28 (F := Ideal) x4 (ix2 o (0 : Fin 1))).toInt.toNat (200 - 1) < 200,
      (⟨min (val_main_v28 (F := Ideal) x4 (ix2 o (0 : Fin 1))).toInt.toNat (200 - 1), h⟩ : Fin 200)
        = cls (x4 (ix2 (colB o) (colT o))) := fun h => Fin.ext hk
  rw [hc, Ideal.hostNegf_def, Ideal.negf_def, zero_sub]

end Cert.MatchRef

end
-- ==== Proof.RefGeom.lean ====
/-
  The reference's two geometric costs at flattened row `r` and flattened column `o`: the L1 distance of the unscaled
  segments, and minus the generalized IoU of the segments scaled by their own batch elements' lengths.
-/
import proofs.«405165_j11484742549831_3_alg».proof.Proof.Gen.ReferenceIdeal.Read
import proofs.«405165_j11484742549831_3_alg».proof.Proof.MatchCost
import proofs.«405165_j11484742549831_3_alg».proof.Proof.FlatIdx
import Idealize.ShloMosaic.Lib.ValueIdx
import Idealize.ShloMosaic.Lib.Pipeline.Value
import Idealize.ShloMosaic.PureOps.Ideal.Laws

noncomputable section

open scoped BigOperators

namespace Cert.MatchRef

open Cert.ReferenceIdeal Cert.ReferenceIdeal.Gen Cert.ReferenceIdeal.Read Idealize.ShloMosaic Idealize.ShloMosaic.ValueIdx
open Cert.MatchCost Cert.FlatIdx

/-- Row `r` of the flattened queries, coordinate `k`, is coordinate `k` of query `rowQ r` of batch element `rowB r`. -/
theorem idx_row (r : Fin 19200) (k : Fin 2) :
    idx_main_v12 (ix2 r k) = ix3 (rowB r) (rowQ r) k := by
  funext a
  match a with
  | ⟨0, _⟩ => exact Fin.ext (by show (r.val * 2 + k.val) / 600 = r.val / 300; have := k.isLt; omega)
  | ⟨1, _⟩ => exact Fin.ext (by show (r.val * 2 + k.val) / 2 % 300 = r.val % 300; have := k.isLt; omega)
  | ⟨2, _⟩ => exact Fin.ext (by show (r.val * 2 + k.val) % 2 = k.val; have := k.isLt; omega)

/-- Column `o` of the flattened targets, coordinate `k`, is coordinate `k` of target `colT o` of batch element `colB o`. -/
theorem idx_col (o : Fin 2048) (k : Fin 2) :
    idx_main_v18 (ix2 o k) = ix3 (colB o) (colT o) k := by
  funext a
  match a with
  | ⟨0, _⟩ => exact Fin.ext (by show (o.val * 2 + k.val) / 64 = o.val / 32; have := k.isLt; omega)
  | ⟨1, _⟩ => exact Fin.ext (by show (o.val * 2 + k.val) / 2 % 32 = o.val % 32; have := k.isLt; omega)
  | ⟨2, _⟩ => exact Fin.ext (by show (o.val * 2 + k.val) % 2 = k.val; have := k.isLt; omega)

/-- The flattened queries read at `(r, k)`. -/
theorem v12_at (x1 : (⟨S64x300x2, .f32⟩ : BufTy).Contents (Elt Ideal)) (r : Fin 19200) (k : Fin 2) :
    val_main_v12 (F := Ideal) x1 (ix2 r k) = x1 (ix3 (rowB r) (rowQ r) k) := by
  rw [val_main_v12_apply, idx_row]

/-- The flattened targets read at `(o, k)`. -/
theorem v18_at (x2 : (⟨S64x32x2, .f32⟩ : BufTy).Contents (Elt Ideal)) (o : Fin 2048) (k : Fin 2) :
    val_main_v18 (F := Ideal) x2 (ix2 o k) = x2 (ix3 (colB o) (colT o) k) := by
  rw [val_main_v18_apply, idx_col]

/-- One term of the L1 distance: the absolute difference of coordinate `k`. -/
theorem v36_at (x1 : (⟨S64x300x2, .f32⟩ : BufTy).Contents (Elt Ideal)) (x2 : (⟨S64x32x2, .f32⟩ : BufTy).Contents (Elt Ideal))
    (r : Fin 19200) (o : Fin 2048) (k : Fin 2) :
    val_main_v36 (F := Ideal) x1 x2 (ix3 r o k)
      = absE (x1 (ix3 (rowB r) (rowQ r) k) - x2 (ix3 (colB o) (colT o) k)) := by
  rw [val_main_v36_apply, val_main_v35_apply, val_main_v33_apply, val_main_v31_apply, val_main_v34_apply,
    val_main_v32_apply]
  have h1 : idx_main_v31 (idx_main_v33 (ix3 r o k)) = ix2 r k := by
    funext a; match a with | ⟨0, _⟩ => rfl | ⟨1, _⟩ => rfl
  have h2 : idx_main_v32 (idx_main_v34 (ix3 r o k)) = ix2 o k := by
    funext a; match a with | ⟨0, _⟩ => rfl | ⟨1, _⟩ => rfl
  rw [h1, h2, v12_at, v18_at]
  rfl

/-- The L1 distance: the sum over the two coordinates (centre, width) of the absolute differences, from 0. -/
theorem ref_seg (x1 : (⟨S64x300x2, .f32⟩ : BufTy).Contents (Elt Ideal)) (x2 : (⟨S64x32x2, .f32⟩ : BufTy).Contents (Elt Ideal))
    (r : Fin 19200) (o : Fin 2048) :
    val_main_v37 (F := Ideal) x1 x2 (ix2 r o)
      = segCost (x1 (ix3 (rowB r) (rowQ r) (0 : Fin 2))) (x1 (ix3 (rowB r) (rowQ r) (1 : Fin 2)))
          (x2 (ix3 (colB o) (colT o) (0 : Fin 2))) (x2 (ix3 (colB o) (colT o) (1 : Fin 2))) := by
  rw [val_main_v37_apply, Fin.sum_univ_two]
  have h0 : idx_main_v37 (ix2 r o) (0 : Fin 2) = ix3 r o (0 : Fin 2) := by
    funext a; match a with | ⟨0, _⟩ => rfl | ⟨1, _⟩ => rfl | ⟨2, _⟩ => rfl
  have h1 : idx_main_v37 (ix2 r o) (1 : Fin 2) = ix3 r o (1 : Fin 2) := by
    funext a; match a with | ⟨0, _⟩ => rfl | ⟨1, _⟩ => rfl | ⟨2, _⟩ => rfl
  rw [h0, h1, v36_at, v36_at, val_main_cst_3_apply, Ideal.ofBits_def, Ideal.ofBits_zero_f32, zero_add]
  rfl

/-! ### The scaled ends, one row or one column at a time -/

/-- The scaled queries at `(r, k)`: the query's coordinate times the length of ITS batch element. -/
theorem v16_at (x1 : (⟨S64x300x2, .f32⟩ : BufTy).Contents (Elt Ideal)) (x3 : (⟨S64x1, .f32⟩ : BufTy).Contents (Elt Ideal))
    (r : Fin 19200) (k : Fin 2) :
    val_main_v16 (F := Ideal) x1 x3 (ix2 r k)
      = x1 (ix3 (rowB r) (rowQ r) k) * x3 (ix2 (rowB r) (0 : Fin 1)) := by
  rw [val_main_v16_apply, v12_at, val_main_v15_apply, val_main_v14_apply, val_main_v13_apply]
  have h : idx_main_v13 (idx_main_v14 (idx_main_v15 (ix2 r k))) = ix2 (rowB r) (0 : Fin 1) := by
    funext a
    match a with
    | ⟨0, _⟩ => exact Fin.ext (by show (r.val * 1 + 0) / 300 = r.val / 300; omega)
    | ⟨1, _⟩ => rfl
  rw [h]
  rfl

/-- The scaled targets at `(o, k)`: the target's coordinate times the length of ITS batch element. -/
theorem v22_at (x2 : (⟨S64x32x2, .f32⟩ : BufTy).Contents (Elt Ideal)) (x3 : (⟨S64x1, .f32⟩ : BufTy).Contents (Elt Ideal))
    (o : Fin 2048) (k : Fin 2) :
    val_main_v22 (F := Ideal) x2 x3 (ix2 o k)
      = x2 (ix3 (colB o) (colT o) k) * x3 (ix2 (colB o) (0 : Fin 1)) := by
  have hc : idx_main_v22 (ix2 o k) = ix3 (colB o) (colT o) k := idx_col o k
  rw [val_main_v22_apply, hc, val_main_v21_apply, val_main_v20_apply, val_main_v19_apply]
  have h : idx_main_v19 (idx_main_v20 (ix3 (colB o) (colT o) k)) = ix2 (colB o) (0 : Fin 1) := by
    funext a; match a with | ⟨0, _⟩ => rfl | ⟨1, _⟩ => rfl
  rw [h]
  rfl

/-- The scaled centre of row `r`. -/
theorem v39_at (x1 : (⟨S64x300x2, .f32⟩ : BufTy).Contents (Elt Ideal)) (x3 : (⟨S64x1, .f32⟩ : BufTy).Contents (Elt Ideal))
    (r : Fin 19200) :
    val_main_v39 (F := Ideal) x1 x3 (ix1 r)
      = x1 (ix3 (rowB r) (rowQ r) (0 : Fin 2)) * x3 (ix2 (rowB r) (0 : Fin 1)) := by
  rw [val_main_v39_apply, val_main_v38_apply]
  have h : idx_main_v38 (idx_main_v39 (ix1 r)) = ix2 r (0 : Fin 2) := by
    funext a
    match a with
    | ⟨0, _⟩ => exact Fin.ext (Nat.div_one r.val)
    | ⟨1, _⟩ => rfl
  rw [h, v16_at]

/-- The scaled width of row `r`. -/
theorem v41_at (x1 : (⟨S64x300x2, .f32⟩ : BufTy).Contents (Elt Ideal)) (x3 : (⟨S64x1, .f32⟩ : BufTy).Contents (Elt Ideal))
    (r : Fin 19200) :
    val_main_v41 (F := Ideal) x1 x3 (ix1 r)
      = x1 (ix3 (rowB r) (rowQ r) (1 : Fin 2)) * x3 (ix2 (rowB r) (0 : Fin 1)) := by
  rw [val_main_v41_apply, val_main_v40_apply]
  have h : idx_main_v40 (idx_main_v41 (ix1 r)) = ix2 r (1 : Fin 2) := by
    funext a
    match a with
    | ⟨0, _⟩ => exact Fin.ext (Nat.div_one r.val)
    | ⟨1, _⟩ => rfl
  rw [h, v16_at]

/-- The scaled centre of column `o`. -/
theorem v49_at (x2 : (⟨S64x32x2, .f32⟩ : BufTy).Contents (Elt Ideal)) (x3 : (⟨S64x1, .f32⟩ : BufTy).Contents (Elt Ideal))
    (o : Fin 2048) :
    val_main_v49 (F := Ideal) x2 x3 (ix1 o)
      = x2 (ix3 (colB o) (colT o) (0 : Fin 2)) * x3 (ix2 (colB o) (0 : Fin 1)) := by
  rw [val_main_v49_apply, val_main_v48_apply]
  have h : idx_main_v48 (idx_main_v49 (ix1 o)) = ix2 o (0 : Fin 2) := by
    funext a
    match a with
    | ⟨0, _⟩ => exact Fin.ext (Nat.div_one o.val)
    | ⟨1, _⟩ => rfl
  rw [h, v22_at]

/-- The scaled width of column `o`. -/
theorem v51_at (x2 : (⟨S64x32x2, .f32⟩ : BufTy).Contents (Elt Ideal)) (x3 : (⟨S64x1, .f32⟩ : BufTy).Contents (Elt Ideal))
    (o : Fin 2048) :
    val_main_v51 (F := Ideal) x2 x3 (ix1 o)
      = x2 (ix3 (colB o) (colT o) (1 : Fin 2)) * x3 (ix2 (colB o) (0 : Fin 1)) := by
  rw [val_main_v51_apply, val_main_v50_apply]
  have h : idx_main_v50 (idx_main_v51 (ix1 o)) = ix2 o (1 : Fin 2) := by
    funext a
    match a with
    | ⟨0, _⟩ => exact Fin.ext (Nat.div_one o.val)
    | ⟨1, _⟩ => rfl
  rw [h, v22_at]

/-- The start of the query's scaled segment: centre·length − ½·(width·length). -/
theorem v44_at (x1 : (⟨S64x300x2, .f32⟩ : BufTy).Contents (Elt Ideal)) (x3 : (⟨S64x1, .f32⟩ : BufTy).Contents (Elt Ideal))
    (r : Fin 19200) :
    val_main_v44 (F := Ideal) x1 x3 (ix1 r)
      = segStart (x1 (ix3 (rowB r) (rowQ r) (0 : Fin 2))) (x1 (ix3 (rowB r) (rowQ r) (1 : Fin 2)))
          (x3 (ix2 (rowB r) (0 : Fin 1))) := by
  rw [val_main_v44_apply, val_main_v43_apply, v39_at, v41_at, val_main_v42_apply, val_main_cst_4_apply]
  rfl

/-- The end of the query's scaled segment: centre·length + ½·(width·length). -/
theorem v47_at (x1 : (⟨S64x300x2, .f32⟩ : BufTy).Contents (Elt Ideal)) (x3 : (⟨S64x1, .f32⟩ : BufTy).Contents (Elt Ideal))
    (r : Fin 19200) :
    val_main_v47 (F := Ideal) x1 x3 (ix1 r)
      = segEnd (x1 (ix3 (rowB r) (rowQ r) (0 : Fin 2))) (x1 (ix3 (rowB r) (rowQ r) (1 : Fin 2)))
          (x3 (ix2 (rowB r) (0 : Fin 1))) := by
  rw [val_main_v47_apply, val_main_v46_apply, v39_at, v41_at, val_main_v45_apply, val_main_cst_5_apply]
  rfl

/-- The start of the target's scaled segment. -/
theorem v54_at (x2 : (⟨S64x32x2, .f32⟩ : BufTy).Contents (Elt Ideal)) (x3 : (⟨S64x1, .f32⟩ : BufTy).Contents (Elt Ideal))
    (o : Fin 2048) :
    val_main_v54 (F := Ideal) x2 x3 (ix1 o)
      = segStart (x2 (ix3 (colB o) (colT o) (0 : Fin 2))) (x2 (ix3 (colB o) (colT o) (1 : Fin 2)))
          (x3 (ix2 (colB o) (0 : Fin 1))) := by
  rw [val_main_v54_apply, val_main_v53_apply, v49_at, v51_at, val_main_v52_apply, val_main_cst_6_apply]
  rfl

/-- The end of the target's scaled segment. -/
theorem v57_at (x2 : (⟨S64x32x2, .f32⟩ : BufTy).Contents (Elt Ideal)) (x3 : (⟨S64x1, .f32⟩ : BufTy).Contents (Elt Ideal))
    (o : Fin 2048) :
    val_main_v57 (F := Ideal) x2 x3 (ix1 o)
      = segEnd (x2 (ix3 (colB o) (colT o) (0 : Fin 2))) (x2 (ix3 (colB o) (colT o) (1 : Fin 2)))
          (x3 (ix2 (colB o) (0 : Fin 1))) := by
  rw [val_main_v57_apply, val_main_v56_apply, v49_at, v51_at, val_main_v55_apply, val_main_cst_7_apply]
  rfl

/-! ### The ends spread over the grid of (row, column) pairs: a row's ends do not depend on the column, a column's ends
    do not depend on the row -/

/-- The query's end on the grid (as read for the intersection) is the end of row `r`. -/
theorem v62_at (x1 : (⟨S64x300x2, .f32⟩ : BufTy).Contents (Elt Ideal)) (x3 : (⟨S64x1, .f32⟩ : BufTy).Contents (Elt Ideal))
    (r : Fin 19200) (o : Fin 2048) :
    val_main_v62 (F := Ideal) x1 x3 (ix2 r o) = val_main_v47 (F := Ideal) x1 x3 (ix1 r) := by
  rw [val_main_v62_apply, val_main_v59_apply]
  exact congrArg _ (funext fun a => match a with | ⟨0, _⟩ => rfl)

/-- The query's end on the grid (as read for the enclosing segment) is the end of row `r`. -/
theorem v77_at (x1 : (⟨S64x300x2, .f32⟩ : BufTy).Contents (Elt Ideal)) (x3 : (⟨S64x1, .f32⟩ : BufTy).Contents (Elt Ideal))
    (r : Fin 19200) (o : Fin 2048) :
    val_main_v77 (F := Ideal) x1 x3 (ix2 r o) = val_main_v47 (F := Ideal) x1 x3 (ix1 r) := by
  rw [val_main_v77_apply, val_main_v59_apply]
  exact congrArg _ (funext fun a => match a with | ⟨0, _⟩ => rfl)

/-- The query's start on the grid (as read for the intersection) is the start of row `r`. -/
theorem v65_at (x1 : (⟨S64x300x2, .f32⟩ : BufTy).Contents (Elt Ideal)) (x3 : (⟨S64x1, .f32⟩ : BufTy).Contents (Elt Ideal))
    (r : Fin 19200) (o : Fin 2048) :
    val_main_v65 (F := Ideal) x1 x3 (ix2 r o) = val_main_v44 (F := Ideal) x1 x3 (ix1 r) := by
  rw [val_main_v65_apply, val_main_v58_apply]
  exact congrArg _ (funext fun a => match a with | ⟨0, _⟩ => rfl)

/-- The query's start on the grid (as read for the enclosing segment) is the start of row `r`. -/
theorem v80_at (x1 : (⟨S64x300x2, .f32⟩ : BufTy).Contents (Elt Ideal)) (x3 : (⟨S64x1, .f32⟩ : BufTy).Contents (Elt Ideal))
    (r : Fin 19200) (o : Fin 2048) :
    val_main_v80 (F := Ideal) x1 x3 (ix2 r o) = val_main_v44 (F := Ideal) x1 x3 (ix1 r) := by
  rw [val_main_v80_apply, val_main_v58_apply]
  exact congrArg _ (funext fun a => match a with | ⟨0, _⟩ => rfl)

/-- The target's end on the grid (as read for the intersection) is the end of column `o`. -/
theorem v63_at (x2 : (⟨S64x32x2, .f32⟩ : BufTy).Contents (Elt Ideal)) (x3 : (⟨S64x1, .f32⟩ : BufTy).Contents (Elt Ideal))
    (r : Fin 19200) (o : Fin 2048) :
    val_main_v63 (F := Ideal) x2 x3 (ix2 r o) = val_main_v57 (F := Ideal) x2 x3 (ix1 o) := by
  rw [val_main_v63_apply, val_main_v61_apply]
  exact congrArg _ (funext fun a => match a with | ⟨0, _⟩ => rfl)

/-- The target's end on the grid (as read for the enclosing segment) is the end of column `o`. -/
theorem v78_at (x2 : (⟨S64x32x2, .f32⟩ : BufTy).Contents (Elt Ideal)) (x3 : (⟨S64x1, .f32⟩ : BufTy).Contents (Elt Ideal))
    (r : Fin 19200) (o : Fin 2048) :
    val_main_v78 (F := Ideal) x2 x3 (ix2 r o) = val_main_v57 (F := Ideal) x2 x3 (ix1 o) := by
  rw [val_main_v78_apply, val_main_v61_apply]
  exact congrArg _ (funext fun a => match a with | ⟨0, _⟩ => rfl)

/-- The target's start on the grid (as read for the intersection) is the start of column `o`. -/
theorem v66_at (x2 : (⟨S64x32x2, .f32⟩ : BufTy).Contents (Elt Ideal)) (x3 : (⟨S64x1, .f32⟩ : BufTy).Contents (Elt Ideal))
    (r : Fin 19200) (o : Fin 2048) :
    val_main_v66 (F := Ideal) x2 x3 (ix2 r o) = val_main_v54 (F := Ideal) x2 x3 (ix1 o) := by
  rw [val_main_v66_apply, val_main_v60_apply]
  exact congrArg _ (funext fun a => match a with | ⟨0, _⟩ => rfl)

/-- The target's start on the grid (as read for the enclosing segment) is the start of column `o`. -/
theorem v81_at (x2 : (⟨S64x32x2, .f32⟩ : BufTy).Contents (Elt Ideal)) (x3 : (⟨S64x1, .f32⟩ : BufTy).Contents (Elt Ideal))
    (r : Fin 19200) (o : Fin 2048) :
    val_main_v81 (F := Ideal) x2 x3 (ix2 r o) = val_main_v54 (F := Ideal) x2 x3 (ix1 o) := by
  rw [val_main_v81_apply, val_main_v60_apply]
  exact congrArg _ (funext fun a => match a with | ⟨0, _⟩ => rfl)

/-- The query's scaled length, end minus start, on the grid. -/
theorem v72_at (x1 : (⟨S64x300x2, .f32⟩ : BufTy).Contents (Elt Ideal)) (x3 : (⟨S64x1, .f32⟩ : BufTy).Contents (Elt Ideal))
    (r : Fin 19200) (o : Fin 2048) :
    val_main_v72 (F := Ideal) x1 x3 (ix2 r o)
      = val_main_v47 (F := Ideal) x1 x3 (ix1 r) - val_main_v44 (F := Ideal) x1 x3 (ix1 r) := by
  rw [val_main_v72_apply, val_main_v70_apply, val_main_v59_apply, val_main_v58_apply]
  have h9 : idx_main_v59 (idx_main_v72 (ix2 r o)) = ix1 r := funext fun a => match a with | ⟨0, _⟩ => rfl
  have h8 : idx_main_v58 (idx_main_v72 (ix2 r o)) = ix1 r := funext fun a => match a with | ⟨0, _⟩ => rfl
  rw [h9, h8]
  rfl

/-- The target's scaled length, end minus start, on the grid. -/
theorem v73_at (x2 : (⟨S64x32x2, .f32⟩ : BufTy).Contents (Elt Ideal)) (x3 : (⟨S64x1, .f32⟩ : BufTy).Contents (Elt Ideal))
    (r : Fin 19200) (o : Fin 2048) :
    val_main_v73 (F := Ideal) x2 x3 (ix2 r o)
      = val_main_v57 (F := Ideal) x2 x3 (ix1 o) - val_main_v54 (F := Ideal) x2 x3 (ix1 o) := by
  rw [val_main_v73_apply, val_main_v71_apply, val_main_v61_apply, val_main_v60_apply]
  have h1 : idx_main_v61 (idx_main_v73 (ix2 r o)) = ix1 o := funext fun a => match a with | ⟨0, _⟩ => rfl
  have h0 : idx_main_v60 (idx_main_v73 (ix2 r o)) = ix1 o := funext fun a => match a with | ⟨0, _⟩ => rfl
  rw [h1, h0]
  rfl

/-- The zero the intersection is cut off at. -/
theorem clip0_at (i : S19200x2048.Idx) : val_main_call0_v1 (F := Ideal) i = (0 : EReal) := by
  rw [val_main_call0_v1_apply, val_main_call0_v0_apply, val_main_cst_8_apply, Ideal.ofBits_def, Ideal.ofBits_zero_f32]

/-- The generalized IoU on the grid, before the sign. -/
theorem v86_at (x1 : (⟨S64x300x2, .f32⟩ : BufTy).Contents (Elt Ideal)) (x2 : (⟨S64x32x2, .f32⟩ : BufTy).Contents (Elt Ideal))
    (x3 : (⟨S64x1, .f32⟩ : BufTy).Contents (Elt Ideal)) (r : Fin 19200) (o : Fin 2048) :
    val_main_v86 (F := Ideal) x1 x2 x3 (ix2 r o)
      = giou (x1 (ix3 (rowB r) (rowQ r) (0 : Fin 2))) (x1 (ix3 (rowB r) (rowQ r) (1 : Fin 2)))
          (x2 (ix3 (colB o) (colT o) (0 : Fin 2))) (x2 (ix3 (colB o) (colT o) (1 : Fin 2)))
          (x3 (ix2 (rowB r) (0 : Fin 1))) (x3 (ix2 (colB o) (0 : Fin 1))) := by
  rw [val_main_v86_apply, val_main_v76_apply, val_main_v85_apply, val_main_v84_apply, val_main_v83_apply,
    val_main_v75_apply, val_main_v74_apply, val_main_v69_apply, val_main_v68_apply, val_main_v64_apply,
    val_main_v67_apply, val_main_v79_apply, val_main_v82_apply, clip0_at,
    v62_at, v63_at, v65_at, v66_at, v72_at, v73_at, v77_at, v78_at, v80_at, v81_at,
    v44_at, v47_at, v54_at, v57_at]
  unfold giou giouSE union enclose inter
  simp only [Ideal.subf_def, Ideal.addf_def, Ideal.maximumf_def, Ideal.minimumf_def, Ideal.hostDivf_def]
  rw [max_comm (0 : EReal)]

/-- Minus the generalized IoU: the query's segment scaled by ITS batch element's length, the target's by its own. -/
theorem ref_giou (x1 : (⟨S64x300x2, .f32⟩ : BufTy).Contents (Elt Ideal)) (x2 : (⟨S64x32x2, .f32⟩ : BufTy).Contents (Elt Ideal))
    (x3 : (⟨S64x1, .f32⟩ : BufTy).Contents (Elt Ideal)) (r : Fin 19200) (o : Fin 2048) :
    val_main_v87 (F := Ideal) x1 x2 x3 (ix2 r o)
      = 0 - giou (x1 (ix3 (rowB r) (rowQ r) (0 : Fin 2))) (x1 (ix3 (rowB r) (rowQ r) (1 : Fin 2)))
          (x2 (ix3 (colB o) (colT o) (0 : Fin 2))) (x2 (ix3 (colB o) (colT o) (1 : Fin 2)))
          (x3 (ix2 (rowB r) (0 : Fin 1))) (x3 (ix2 (colB o) (0 : Fin 1))) := by
  rw [val_main_v87_apply, v86_at, zero_sub]
  rfl

end Cert.MatchRef

end
-- ==== Proof.LibDiagGather.lean ====
/-
  A gather of `[Q, T]` faces of a rank-4 table at pairs of start indices, read at an index.

  What `x[i, :, j, :]` of a table `x : [A, Q, B, T]` at two index vectors `i, j : [M]` lowers to: a `stablehlo.gather` over
  the start indices kept as an `[M, 2]` array of pairs, with offset_dims `[1, 2]`, collapsed_slice_dims `[0, 2]`,
  start_index_map `[0, 2]`, index_vector_dim `1` and slice_sizes `[1, Q, 1, T]`; the result is `[M, Q, T]`. Result
  entry `(n, q, t)` is the table's entry at `(a, q, b, t)` where `a` and `b` are the two words of pair `n`, each read as a
  SIGNED integer and clamped into its axis (`[0, A − 1]`, `[0, B − 1]`), as the gather clamps every start index so
  that its slice fits.
-/
import Idealize.ShloMosaic.Lib.ValueIdx

noncomputable section

namespace Cert.LibDiagGather

open Idealize.ShloMosaic Idealize.ShloMosaic.ValueIdx

variable {α : Type}

/-- The dimension numbers of the face gather for a table `[A, Q, B, T]`, start indices `[M, 2]` and result `[M, Q, T]`; their
    side conditions `wf` are decided on a program's literal shapes. -/
abbrev faceDims (A Q B T M : Nat)
    (wf : GatherDims.WF ⟨4, ![A, Q, B, T]⟩ ⟨2, ![M, 2]⟩ ⟨3, ![M, Q, T]⟩ [1, 2] [0, 2] [] [0, 2] [] 1 ![1, Q, 1, T]) :
    GatherDims ⟨4, ![A, Q, B, T]⟩ ⟨2, ![M, 2]⟩ ⟨3, ![M, Q, T]⟩ where
  offsetDims := [1, 2]
  collapsedSliceDims := [0, 2]
  operandBatchingDims := []
  startIndicesBatchingDims := []
  startIndexMap := [0, 2]
  indexVectorDim := 1
  sliceSizes := ![1, Q, 1, T]
  wf := wf

variable {A Q B T M w : Nat}
  (wf : GatherDims.WF ⟨4, ![A, Q, B, T]⟩ ⟨2, ![M, 2]⟩ ⟨3, ![M, Q, T]⟩ [1, 2] [0, 2] [] [0, 2] [] 1 ![1, Q, 1, T])

/-- On the table's FIRST axis the gather reads the row the pair's first word names, clamped into the table: the axis is
    collapsed (no offset) and start-indexed by component 0. -/
theorem operandIdx_0 (idx : IVec ⟨2, ![M, 2]⟩ w) (y : (⟨3, ![M, Q, T]⟩ : Shape).Idx) :
    ((faceDims A Q B T M wf).operandIdx y idx 0).val = min (idx (ix2 (y 0) (0 : Fin 2))).toInt.toNat (A - 1) := by
  show (faceDims A Q B T M wf).start y idx 0 + (faceDims A Q B T M wf).batchCoord y 0 + (faceDims A Q B T M wf).offCoord y 0 = _
  rw [GatherDims.batchCoord_eq_zero _ _ _ List.not_mem_nil,
    GatherDims.offCoord_eq_zero _ _ _ (fun h => ((GatherDims.mem_sKept _ _).mp h).1
      (show (0 : Fin 4) ∈ ([0, 2] : List (Fin 4)) from by decide))]
  simp only [Nat.add_zero]
  unfold GatherDims.start
  rw [dif_pos (show (0 : Fin 4) ∈ (faceDims A Q B T M wf).startIndexMap from
    (show (0 : Fin 4) ∈ ([0, 2] : List (Fin 4)) from by decide))]
  have hsi : (faceDims A Q B T M wf).siIdx y ⟨List.idxOf (0 : Fin 4) (faceDims A Q B T M wf).startIndexMap,
      List.idxOf_lt_length_iff.2 (show (0 : Fin 4) ∈ ([0, 2] : List (Fin 4)) from by decide)⟩ = ix2 (y 0) (0 : Fin 2) := by
    funext b; refine Fin.ext ?_
    match b with
    | ⟨0, _⟩ => rfl
    | ⟨1, _⟩ => rfl
  rw [hsi]
  rfl

/-- On the THIRD axis likewise, by the pair's second word. -/
theorem operandIdx_2 (idx : IVec ⟨2, ![M, 2]⟩ w) (y : (⟨3, ![M, Q, T]⟩ : Shape).Idx) :
    ((faceDims A Q B T M wf).operandIdx y idx 2).val = min (idx (ix2 (y 0) (1 : Fin 2))).toInt.toNat (B - 1) := by
  show (faceDims A Q B T M wf).start y idx 2 + (faceDims A Q B T M wf).batchCoord y 2 + (faceDims A Q B T M wf).offCoord y 2 = _
  rw [GatherDims.batchCoord_eq_zero _ _ _ List.not_mem_nil,
    GatherDims.offCoord_eq_zero _ _ _ (fun h => ((GatherDims.mem_sKept _ _).mp h).1
      (show (2 : Fin 4) ∈ ([0, 2] : List (Fin 4)) from by decide))]
  simp only [Nat.add_zero]
  unfold GatherDims.start
  rw [dif_pos (show (2 : Fin 4) ∈ (faceDims A Q B T M wf).startIndexMap from
    (show (2 : Fin 4) ∈ ([0, 2] : List (Fin 4)) from by decide))]
  have hsi : (faceDims A Q B T M wf).siIdx y ⟨List.idxOf (2 : Fin 4) (faceDims A Q B T M wf).startIndexMap,
      List.idxOf_lt_length_iff.2 (show (2 : Fin 4) ∈ ([0, 2] : List (Fin 4)) from by decide)⟩ = ix2 (y 0) (1 : Fin 2) := by
    funext b; refine Fin.ext ?_
    match b with
    | ⟨0, _⟩ => rfl
    | ⟨1, _⟩ => rfl
  rw [hsi]
  rfl

/-- On the SECOND axis the gather reads the result's own second coordinate: the axis is not start-indexed, and the result's
    first offset axis runs along it. -/
theorem operandIdx_1 (idx : IVec ⟨2, ![M, 2]⟩ w) (y : (⟨3, ![M, Q, T]⟩ : Shape).Idx) :
    ((faceDims A Q B T M wf).operandIdx y idx 1).val = (y 1).val := by
  show (faceDims A Q B T M wf).start y idx 1 + (faceDims A Q B T M wf).batchCoord y 1 + (faceDims A Q B T M wf).offCoord y 1 = _
  rw [GatherDims.batchCoord_eq_zero _ _ _ List.not_mem_nil, Nat.add_zero]
  unfold GatherDims.start
  rw [dif_neg (show (1 : Fin 4) ∉ (faceDims A Q B T M wf).startIndexMap from
    (by decide : (1 : Fin 4) ∉ ([0, 2] : List (Fin 4)))), Nat.zero_add]
  unfold GatherDims.offCoord
  rw [dif_pos (show (1 : Fin 4) ∈ (faceDims A Q B T M wf).sKept from
    (GatherDims.mem_sKept _ _).mpr ⟨(by decide : (1 : Fin 4) ∉ ([0, 2] : List (Fin 4))), List.not_mem_nil⟩)]
  rfl

/-- On the FOURTH axis it reads the result's third coordinate, along the second offset axis. -/
theorem operandIdx_3 (idx : IVec ⟨2, ![M, 2]⟩ w) (y : (⟨3, ![M, Q, T]⟩ : Shape).Idx) :
    ((faceDims A Q B T M wf).operandIdx y idx 3).val = (y 2).val := by
  show (faceDims A Q B T M wf).start y idx 3 + (faceDims A Q B T M wf).batchCoord y 3 + (faceDims A Q B T M wf).offCoord y 3 = _
  rw [GatherDims.batchCoord_eq_zero _ _ _ List.not_mem_nil, Nat.add_zero]
  unfold GatherDims.start
  rw [dif_neg (show (3 : Fin 4) ∉ (faceDims A Q B T M wf).startIndexMap from
    (by decide : (3 : Fin 4) ∉ ([0, 2] : List (Fin 4)))), Nat.zero_add]
  unfold GatherDims.offCoord
  rw [dif_pos (show (3 : Fin 4) ∈ (faceDims A Q B T M wf).sKept from
    (GatherDims.mem_sKept _ _).mpr ⟨(by decide : (3 : Fin 4) ∉ ([0, 2] : List (Fin 4))), List.not_mem_nil⟩)]
  rfl

/-- THE FACE GATHER READ AT `(n, q, t)`: the table at the row and the third-axis position pair `n`'s two words name (read
    signed, clamped into their axes), at `q` and `t` on the two kept axes. -/
theorem gather_faces_apply (hA : 0 < A) (hB : 0 < B) (x : (⟨4, ![A, Q, B, T]⟩ : Shape).Idx → α) (idx : IVec ⟨2, ![M, 2]⟩ w)
    (y : (⟨3, ![M, Q, T]⟩ : Shape).Idx) :
    Host.gather (faceDims A Q B T M wf) x idx y
      = x (ix4 (⟨min (idx (ix2 (y 0) (0 : Fin 2))).toInt.toNat (A - 1), by omega⟩ : Fin A) (y 1)
            (⟨min (idx (ix2 (y 0) (1 : Fin 2))).toInt.toNat (B - 1), by omega⟩ : Fin B) (y 2)) := by
  unfold Host.gather
  congr 1
  funext a
  refine Fin.ext ?_
  match a with
  | ⟨0, _⟩ => exact operandIdx_0 wf idx y
  | ⟨1, _⟩ => exact operandIdx_1 wf idx y
  | ⟨2, _⟩ => exact operandIdx_2 wf idx y
  | ⟨3, _⟩ => exact operandIdx_3 wf idx y

end Cert.LibDiagGather

end
-- ==== Proof.RefDiag.lean ====
/-
  The reference's result is the specification.

  The reference builds the full cross matrix `C[r, o]` over flattened rows `r = b·300 + q` and flattened columns
  `o = b'·32 + t`, views it as `[64, 300, 64, 32]`, and keeps the faces `(b, ·, b, ·)`: entry `(b, q, t)` of the result is
  `C[b·300 + q, b·32 + t]`, the cost of query `q` against target `t` of the SAME batch element, where both lengths are
  batch element `b`'s.
-/
import proofs.«405165_j11484742549831_3_alg».proof.Proof.Gen.ReferenceIdeal.Read
import proofs.«405165_j11484742549831_3_alg».proof.Proof.MatchCost
import proofs.«405165_j11484742549831_3_alg».proof.Proof.FlatIdx
import proofs.«405165_j11484742549831_3_alg».proof.Proof.RefClass
import proofs.«405165_j11484742549831_3_alg».proof.Proof.RefGeom
import proofs.«405165_j11484742549831_3_alg».proof.Proof.LibDiagGather
import Idealize.ShloMosaic.Lib.ValueIdx
import Idealize.ShloMosaic.Lib.Pipeline.Value
import Idealize.ShloMosaic.PureOps.Ideal.Laws

noncomputable section

open scoped BigOperators

namespace Cert.MatchRef

open Cert.ReferenceIdeal Cert.ReferenceIdeal.Gen Cert.ReferenceIdeal.Read Idealize.ShloMosaic Idealize.ShloMosaic.ValueIdx
open Cert.MatchCost Cert.FlatIdx

/-- The cross matrix at flattened row `r` and column `o`: the cost of the pair, the query's segment scaled by its own batch
    element's length and the target's by its own. -/
theorem ref_cross (x0 : (⟨S64x300x200, .f32⟩ : BufTy).Contents (Elt Ideal)) (x1 : (⟨S64x300x2, .f32⟩ : BufTy).Contents (Elt Ideal))
    (x2 : (⟨S64x32x2, .f32⟩ : BufTy).Contents (Elt Ideal)) (x3 : (⟨S64x1, .f32⟩ : BufTy).Contents (Elt Ideal))
    (x4 : (⟨S64x32, .i32⟩ : BufTy).Contents (Elt Ideal)) (hlab : ∀ i : S64x32.Idx, 0 ≤ (x4 i).toInt) (r : Fin 19200) (o : Fin 2048) :
    val_main_v95 (F := Ideal) x0 x1 x2 x3 x4 (ix2 r o)
      = cost (x1 (ix3 (rowB r) (rowQ r) (0 : Fin 2))) (x1 (ix3 (rowB r) (rowQ r) (1 : Fin 2)))
          (x2 (ix3 (colB o) (colT o) (0 : Fin 2))) (x2 (ix3 (colB o) (colT o) (1 : Fin 2)))
          (x3 (ix2 (rowB r) (0 : Fin 1))) (x3 (ix2 (colB o) (0 : Fin 1)))
          (prob (fun c => x0 (ix3 (rowB r) (rowQ r) c)) (cls (x4 (ix2 (colB o) (colT o))))) := by
  rw [val_main_v95_apply, val_main_v92_apply, val_main_v89_apply, val_main_v88_apply, val_main_cst_9_apply,
    val_main_v91_apply, val_main_v90_apply, val_main_cst_10_apply, val_main_v94_apply, val_main_v93_apply,
    val_main_cst_11_apply, ref_seg, ref_giou, ref_class x0 x4 hlab]
  rfl

/-! ### The start indices of the face gather: row `n` of the pair array is the pair `(n, n)` -/

/-- The word of a number below 64 is that number read as a signed integer. -/
theorem word_toInt (n : Fin 64) : (BitVec.ofNat 32 n.val).toInt = (n.val : Int) := by
  have hn := n.isLt
  rw [BitVec.toInt_eq_toNat_cond, BitVec.toNat_ofNat]
  split <;> omega

/-- The wrap-around normalisation `w < 0 ? w + 64 : w` leaves the word of a number below 64 alone: it is not negative. -/
theorem word_norm (n : Fin 64) :
    Scalar.select (IntOp.cmpi .slt (BitVec.ofNat 32 n.val) 0#32) (IntOp.addi (BitVec.ofNat 32 n.val) 64#32)
      (BitVec.ofNat 32 n.val) = BitVec.ofNat 32 n.val := by
  unfold Scalar.select IntOp.cmpi
  have h0 : (0#32 : BitVec 32).toInt = 0 := by decide
  have : (BitVec.ofNat 32 n.val).slt 0#32 = false := by
    simp only [BitVec.slt, h0, word_toInt]; exact decide_eq_false (by omega)
  rw [this]; rfl

/-- The word of a number below 64, read signed and clamped into `[0, 63]`, is the number. -/
theorem word_clamp (n : Fin 64) : min (BitVec.ofNat 32 n.val).toInt.toNat (64 - 1) = n.val := by
  have hn := n.isLt
  rw [word_toInt]
  omega

/-- The first normalised counter at `n` is the word of `n`. -/
theorem v103_at (n : Fin 64) : val_main_v103 (F := Ideal) (ix1 n) = BitVec.ofNat 32 n.val := by
  rw [val_main_v103_apply, val_main_v100_apply, val_main_v102_apply, val_main_v97_apply, val_main_v99_apply,
    val_main_c_12_apply, val_main_v101_apply, val_main_c_13_apply]
  exact word_norm n

/-- The second normalised counter at `n` is the word of `n`. -/
theorem v108_at (n : Fin 64) : val_main_v108 (F := Ideal) (ix1 n) = BitVec.ofNat 32 n.val := by
  rw [val_main_v108_apply, val_main_v105_apply, val_main_v107_apply, val_main_v98_apply, val_main_v104_apply,
    val_main_c_14_apply, val_main_v106_apply, val_main_c_15_apply]
  exact word_norm n

/-- The first component of pair `n` is the word of `n`: it falls in the first joined column. -/
theorem v111_at0 (n : Fin 64) : val_main_v111 (F := Ideal) (ix2 n (0 : Fin 2)) = BitVec.ofNat 32 n.val := by
  unfold val_main_v111
  rw [concatenate_pair_apply_left (t := S64x2) (s₁ := S64x1) (s₂ := S64x1) (1 : Fin 2) _ _
    concatenates_S64x1_S64x1_S64x2_d1 (ix2 n (0 : Fin 2)) rfl (ix2 n (0 : Fin 1))
    (fun b => by match b with | ⟨0, _⟩ => rfl | ⟨1, _⟩ => rfl)]
  rw [val_main_v109_apply]
  have h : idx_main_v109 (ix2 n (0 : Fin 1)) = ix1 n := funext fun a => match a with | ⟨0, _⟩ => rfl
  rw [h, v103_at]

/-- The second component of pair `n` is the word of `n` too: it falls in the second joined column, at its position 0. -/
theorem v111_at1 (n : Fin 64) : val_main_v111 (F := Ideal) (ix2 n (1 : Fin 2)) = BitVec.ofNat 32 n.val := by
  unfold val_main_v111
  rw [concatenate_pair_apply_right (t := S64x2) (s₁ := S64x1) (s₂ := S64x1) (1 : Fin 2) _ _
    concatenates_S64x1_S64x1_S64x2_d1 (ix2 n (1 : Fin 2)) rfl rfl (ix2 n (0 : Fin 1))
    (fun b hb => by
      match b, hb with
      | ⟨0, _⟩, _ => rfl
      | ⟨1, _⟩, hb => exact absurd rfl hb)
    rfl]
  rw [val_main_v110_apply]
  have h : idx_main_v110 (ix2 n (0 : Fin 1)) = ix1 n := funext fun a => match a with | ⟨0, _⟩ => rfl
  rw [h, v108_at]

/-! ### The faces `(b, ·, b, ·)` of the cross matrix -/

/-- Entry `(b, q, b', t)` of the cross matrix viewed as `[64, 300, 64, 32]` is its entry at row `b·300 + q` and column
    `b'·32 + t`. -/
theorem v96_at (x0 : (⟨S64x300x200, .f32⟩ : BufTy).Contents (Elt Ideal)) (x1 : (⟨S64x300x2, .f32⟩ : BufTy).Contents (Elt Ideal))
    (x2 : (⟨S64x32x2, .f32⟩ : BufTy).Contents (Elt Ideal)) (x3 : (⟨S64x1, .f32⟩ : BufTy).Contents (Elt Ideal))
    (x4 : (⟨S64x32, .i32⟩ : BufTy).Contents (Elt Ideal)) (b : Fin 64) (q : Fin 300) (b' : Fin 64) (t : Fin 32) :
    val_main_v96 (F := Ideal) x0 x1 x2 x3 x4 (ix4 b q b' t)
      = val_main_v95 (F := Ideal) x0 x1 x2 x3 x4 (ix2 (flatRow b q) (flatCol b' t)) := by
  rw [val_main_v96_apply]
  refine congrArg _ (funext fun a => Fin.ext ?_)
  have hb := b.isLt
  have hq := q.isLt
  have hb' := b'.isLt
  have ht := t.isLt
  match a with
  | ⟨0, _⟩ =>
    show (((b.val * 300 + q.val) * 64 + b'.val) * 32 + t.val) / 2048 = b.val * 300 + q.val
    omega
  | ⟨1, _⟩ =>
    show (((b.val * 300 + q.val) * 64 + b'.val) * 32 + t.val) % 2048 = b'.val * 32 + t.val
    omega

/-- Pair `n`'s first word, read signed and clamped into `[0, 63]`, is `n`. -/
theorem start0 (n : Fin 64) :
    min (val_main_v111 (F := Ideal) (ix2 n (0 : Fin 2))).toInt.toNat (64 - 1) = n.val := by
  rw [v111_at0]; exact word_clamp n

/-- Pair `n`'s second word, read signed and clamped into `[0, 63]`, is `n`. -/
theorem start1 (n : Fin 64) :
    min (val_main_v111 (F := Ideal) (ix2 n (1 : Fin 2))).toInt.toNat (64 - 1) = n.val := by
  rw [v111_at1]; exact word_clamp n

/-- Entry `(b, q, t)` of the result is the cross matrix at row `b·300 + q` and column `b·32 + t`: the gather takes face
    `(b, ·, b, ·)`, both of pair `b`'s words naming `b`. -/
theorem v112_at (x0 : (⟨S64x300x200, .f32⟩ : BufTy).Contents (Elt Ideal)) (x1 : (⟨S64x300x2, .f32⟩ : BufTy).Contents (Elt Ideal))
    (x2 : (⟨S64x32x2, .f32⟩ : BufTy).Contents (Elt Ideal)) (x3 : (⟨S64x1, .f32⟩ : BufTy).Contents (Elt Ideal))
    (x4 : (⟨S64x32, .i32⟩ : BufTy).Contents (Elt Ideal)) (b : Fin 64) (q : Fin 300) (t : Fin 32) :
    val_main_v112 (F := Ideal) x0 x1 x2 x3 x4 (ix3 b q t)
      = val_main_v95 (F := Ideal) x0 x1 x2 x3 x4 (ix2 (flatRow b q) (flatCol b t)) := by
  unfold val_main_v112
  have hg : gather_S64x300x64x32_S64x2_S64x300x32_12_02_n_n_02_1_1300132
      = Cert.LibDiagGather.faceDims 64 300 64 32 64 gather_S64x300x64x32_S64x2_S64x300x32_12_02_n_n_02_1_1300132_wf := rfl
  rw [hg]
  refine (Cert.LibDiagGather.gather_faces_apply _ (by decide) (by decide) _ _ (ix3 b q t)).trans ?_
  refine Eq.trans (congrArg (val_main_v96 (F := Ideal) x0 x1 x2 x3 x4) ?_) (v96_at x0 x1 x2 x3 x4 b q b t)
  funext a
  refine Fin.ext ?_
  match a with
  | ⟨0, _⟩ => exact start0 b
  | ⟨1, _⟩ => rfl
  | ⟨2, _⟩ => exact start1 b
  | ⟨3, _⟩ => rfl

/-- THE REFERENCE'S RESULT, for non-negative labels, is the specification `G` of the five arguments. -/
theorem ref_eq_G (x0 : (⟨S64x300x200, .f32⟩ : BufTy).Contents (Elt Ideal)) (x1 : (⟨S64x300x2, .f32⟩ : BufTy).Contents (Elt Ideal))
    (x2 : (⟨S64x32x2, .f32⟩ : BufTy).Contents (Elt Ideal)) (x3 : (⟨S64x1, .f32⟩ : BufTy).Contents (Elt Ideal))
    (x4 : (⟨S64x32, .i32⟩ : BufTy).Contents (Elt Ideal)) (hlab : ∀ i : S64x32.Idx, 0 ≤ (x4 i).toInt) :
    val_main_v112 (F := Ideal) x0 x1 x2 x3 x4 = G x0 x1 x2 x3 x4 := by
  funext j
  obtain ⟨b, q, t, rfl⟩ : ∃ (b : Fin 64) (q : Fin 300) (t : Fin 32), j = ix3 b q t := ⟨j 0, j 1, j 2, eq_ix3 j⟩
  rw [v112_at, ref_cross x0 x1 x2 x3 x4 hlab, rowB_flatRow, rowQ_flatRow, colB_flatCol, colT_flatCol]
  rfl

end Cert.MatchRef

end
-- ==== Proof.PreLabels.lean ====
/-
  What the precondition says of the labels: every label word, read as a signed integer, is non-negative.

  The printed precondition is the conjunction (a chain of one-bit `and`s) of five all-reductions: four say that a float
  argument is finite everywhere, the fifth that `label ≥ 0` (a signed word compare with a broadcast 0) holds everywhere.
-/
import proofs.«405165_j11484742549831_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.MatchPre

open Idealize.ShloMosaic Idealize.ShloMosaic.ValueIdx Cert.Pre_finite_inputs

/-- If the precondition holds of the five arguments, every label is non-negative as a signed integer. -/
theorem labels_nonneg [Cert.Pre_finite_inputs.Facts] (a0 : FVec Ideal S64x300x200 .f32) (a1 : FVec Ideal S64x300x2 .f32)
    (a2 : FVec Ideal S64x32x2 .f32) (a3 : FVec Ideal S64x1 .f32) (a4 : IVec S64x32 32)
    (h : Cert.Pre_finite_inputs.fn (F := Ideal) a0 a1 a2 a3 a4 = fun _ => 1#1) :
    ∀ i : S64x32.Idx, 0 ≤ (a4 i).toInt := by
  intro i
  -- the precondition's one word is the last `and` of the chain; it is 1, so both its operands are
  have h0 := congrFun h ix0
  dsimp only [fn, fn_part1] at h0
  have h1 := (IntOp.andi_eq_one.1 h0).2
  -- the second operand is the all-reduction by `and` of `label ≥ 0`: being 1, the compare is 1 at every index
  haveI : Subsingleton S_.Idx := ⟨fun a b => funext fun d => d.elim0⟩
  have h2 := Host.reduce_andi_all _ _ _ _ _ h1 i
  -- a signed `≥` that is 1 says the right word's integer is at most the left's; the right word is the broadcast 0
  have h3 := IntOp.cmpi_sge.1 h2
  have hb : broadcastInDim S64x32 ![] Facts.bcast_S_S64x32 (constantI S_ 32 0#32) i = 0#32 :=
    StableHlo.Predicate.bcast_scalar Facts.bcast_S_S64x32 Facts.h_S_ (constantI S_ 32 0#32) i
  have hz : (0#32 : BitVec 32).toInt = 0 := by decide
  rw [hb, hz] at h3
  exact h3

end Cert.MatchPre

end
-- ==== Proof.lean ====
/-
  The certificate of the matching-cost kernel against its jnp reference.

  Both programs compute, for each of 64 batch elements, the `[300 queries × 32 targets]` matrix of

      L1 distance of the two segments  −  softmax(query's 200 class scores)[target's label]
        −  generalized IoU of the two segments scaled by the batch element's length.

  The kernel does it batch element by batch element (eight per grid point, in a loop), reading the softmax entry as a product
  with the one-hot table of the labels clamped into `[0, 199]`; the reference builds the whole `[19200 × 2048]` cross matrix
  over every pair of batch elements, reading the softmax entry by a gather at the labels (a negative label wrapped round by
  `+ 200`, then clamped by the gather), and keeps the 64 diagonal blocks. Under the precondition — every float input finite,
  every label non-negative — the wrap never fires, both clamps name the same class, and both programs end at one function
  `MatchCost.G` of the five arguments:

  * the kernel: `MatchKernel.run` (the generated frame's run, its output array read block by block: each block is the eight
    trips' slabs side by side, each slab the cost of its batch element's pairs);
  * the reference: the generated run with its result term read one operation at a time, `MatchRef.ref_eq_G`.

  Finiteness of the float inputs is not used: every step is an identity of the extended reals. The three frames are the
  generated ones (the reference's is its run with the result dropped); the idealization rewrote nothing, so `preserves` is `True`.
-/
import proofs.«405165_j11484742549831_3_alg».proof.Defs
import proofs.«405165_j11484742549831_3_alg».proof.Proof.Gen.Kernel
import proofs.«405165_j11484742549831_3_alg».proof.Proof.Gen.Kernel.Skeleton
import proofs.«405165_j11484742549831_3_alg».proof.Proof.Gen.Kernel.Loops
import proofs.«405165_j11484742549831_3_alg».proof.Proof.Gen.Kernel.Launch
import proofs.«405165_j11484742549831_3_alg».proof.Proof.Gen.Kernel.Points
import proofs.«405165_j11484742549831_3_alg».proof.Proof.Gen.Kernel.Frame
import proofs.«405165_j11484742549831_3_alg».proof.Proof.Gen.KernelIdeal
import proofs.«405165_j11484742549831_3_alg».proof.Proof.Gen.KernelIdeal.Skeleton
import proofs.«405165_j11484742549831_3_alg».proof.Proof.Gen.KernelIdeal.Loops
import proofs.«405165_j11484742549831_3_alg».proof.Proof.Gen.KernelIdeal.Launch
import proofs.«405165_j11484742549831_3_alg».proof.Proof.Gen.KernelIdeal.Points
import proofs.«405165_j11484742549831_3_alg».proof.Proof.Gen.KernelIdeal.Frame
import proofs.«405165_j11484742549831_3_alg».proof.Proof.Gen.ReferenceIdeal
import proofs.«405165_j11484742549831_3_alg».proof.Proof.Gen.Pre_finite_inputs
import proofs.«405165_j11484742549831_3_alg».proof.Proof.Gen.KernelIdeal.Value
import proofs.«405165_j11484742549831_3_alg».proof.Proof.Gen.ReferenceIdeal.Run
import proofs.«405165_j11484742549831_3_alg».proof.Proof.Gen.ReferenceIdeal.Read
import proofs.«405165_j11484742549831_3_alg».proof.Proof.KFinal
import proofs.«405165_j11484742549831_3_alg».proof.Proof.RefDiag
import proofs.«405165_j11484742549831_3_alg».proof.Proof.PreLabels
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with non-negative labels, both programs end at `MatchCost.G` of the arguments. -/
theorem algebraic : Cert.algebraic_KernelIdeal_ReferenceIdeal := by
  intro m ρ m' ρ' hpre hagree
  refine ⟨fun c => Cert.MatchKernel.Gm m c, Cert.MatchKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v112_eq, (hagree c).1, (hagree c).2.1, (hagree c).2.2.1, (hagree c).2.2.2.1,
    (hagree c).2.2.2.2]
  exact Cert.MatchRef.ref_eq_G _ _ _ _ _ (Cert.MatchPre.labels_nonneg _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
